-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S64x64 : Shape := ⟨2, ![64, 64]⟩
abbrev S2x2000000 : Shape := ⟨2, ![2, 2000000]⟩
abbrev S2000000 : Shape := ⟨1, ![2000000]⟩
abbrev S2x2048 : Shape := ⟨2, ![2, 2048]⟩
abbrev S2048x1 : Shape := ⟨2, ![2048, 1]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S2048x1 : S_.BroadcastsInDim S2048x1 (![] : Fin 0 → Fin S2048x1.rank)
  reducesTo_S2048x1_S_d0_1 : S2048x1.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg10 : FVec F S64 .f32) (main_arg11 : FVec F S64x16 .f32) (main_arg12 : FVec F S16 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x16 .f32 := Host.absf main_arg11
  let main_cst_14 : FVec F S_ .f32 := constant S_ .f32 0x7F800000#32
  let main_v40 : FVec F S64x16 .f32 := broadcastInDim S64x16 ![] bcast_S_S64x16 main_cst_14
  let main_v41 : IVec S64x16 1 := cmpf .olt main_v39 main_v40
  let main_c_15 : IVec S_ 1 := constantI S_ 1 1#1
  let main_v42 : IVec S_ 1 := (fun x v => Host.reduce IntOp.andi x v reducesTo_S64x16_S_d0_1 h_S_) main_v41 main_c_15
  let main_v43 : IVec S_ 1 := andi main_v38 main_v42
  let main_v44 : FVec F S16 .f32 := Host.absf main_arg12
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg7 : FVec F S64x64 .f32) (main_arg8 : FVec F S64 .f32) (main_arg9 : FVec F S64 .f32) (main_arg10 : FVec F S64 .f32) (main_arg11 : FVec F S64x16 .f32) (main_arg12 : FVec F S16 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64x64 .f32 := Host.absf main_arg7
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg10 main_arg11 main_arg12 main_v33

def fn {F : FTy → Type} [FloatOps F] (main_arg0 : FVec F S100000x128 .f32) (main_arg1 : FVec F S64x64 .f32) (main_arg2 : IVec S2x2000000 32) (main_arg3 : IVec S2000000 32) (main_arg4 : IVec S2x2048 32) (main_arg5 : FVec F S2048x1 .f32) (main_arg6 : FVec F S128x64 .f32) (main_arg7 : FVec F S64x64 .f32) (main_arg8 : FVec F S64 .f32) (main_arg9 : FVec F S64 .f32) (main_arg10 : FVec F S64 .f32) (main_arg11 : FVec F S64x16 .f32) (main_arg12 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S2048x1 .f32 := Host.absf main_arg5
  let main_cst_2 : FVec F S_ .f32 := constant S_ .f32 0x7F800000#32
  let main_v10 : FVec F S2048x1 .f32 := broadcastInDim S2048x1 ![] bcast_S_S2048x1 main_cst_2
  let main_v11 : IVec S2048x1 1 := cmpf .olt main_v9 main_v10
  let main_c_3 : IVec S_ 1 := constantI S_ 1 1#1
  let main_v12 : IVec S_ 1 := (fun x v => Host.reduce IntOp.andi x v reducesTo_S2048x1_S_d0_1 h_S_) main_v11 main_c_3
  let main_v13 : IVec S_ 1 := andi main_v8 main_v12
  let main_v14 : FVec F S128x64 .f32 := Host.absf main_arg6
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg7 main_arg8 main_arg9 main_arg10 main_arg11 main_arg12 main_v13 main_v16
-- ==== Kernel.lean ====
abbrev S100000x128 : Shape := ⟨2, ![100000, 128]⟩
abbrev S64x64 : Shape := ⟨2, ![64, 64]⟩
abbrev S2x2000000 : Shape := ⟨2, ![2, 2000000]⟩
abbrev S2000000 : Shape := ⟨1, ![2000000]⟩
abbrev S2x2048 : Shape := ⟨2, ![2, 2048]⟩
abbrev S2048x1 : Shape := ⟨2, ![2048, 1]⟩
abbrev S128x64 : Shape := ⟨2, ![128, 64]⟩
abbrev S64 : Shape := ⟨1, ![64]⟩
abbrev S64x16 : Shape := ⟨2, ![64, 16]⟩
abbrev S16 : Shape := ⟨1, ![16]⟩
abbrev S100000x64 : Shape := ⟨2, ![100000, 64]⟩
abbrev S5000x128 : Shape := ⟨2, ![5000, 128]⟩
abbrev S5000x64 : Shape := ⟨2, ![5000, 64]⟩
abbrev S1x2048 : Shape := ⟨2, ![1, 2048]⟩
abbrev S2048 : Shape := ⟨1, ![2048]⟩
abbrev S_ : Shape := ⟨0, ![]⟩
abbrev S2048x64 : Shape := ⟨2, ![2048, 64]⟩
abbrev S64x1 : Shape := ⟨2, ![64, 1]⟩
abbrev S1x64 : Shape := ⟨2, ![1, 64]⟩
abbrev S1x2000000 : Shape := ⟨2, ![1, 2000000]⟩
abbrev S2000000x1 : Shape := ⟨2, ![2000000, 1]⟩
abbrev S100000x1 : Shape := ⟨2, ![100000, 1]⟩
abbrev S2000000x64 : Shape := ⟨2, ![2000000, 64]⟩
abbrev S5000x1 : Shape := ⟨2, ![5000, 1]⟩
abbrev S1x16 : Shape := ⟨2, ![1, 16]⟩
abbrev S100000x16 : Shape := ⟨2, ![100000, 16]⟩
abbrev S5000x16 : Shape := ⟨2, ![5000, 16]⟩

abbrev nBuf : Space → Nat
  | .hbm => 149
  | .vmem => 21
  | .smem => 0
  | _ => 0

abbrev hbmTy0_0 (i : Nat) : BufTy := match i % 128 with
  | 0 => ⟨S100000x128, .f32⟩
  | 1 => ⟨S64x64, .f32⟩
  | 2 => ⟨S2x2000000, .i32⟩
  | 3 => ⟨S2000000, .i32⟩
  | 4 => ⟨S2x2048, .i32⟩
  | 5 => ⟨S2048x1, .f32⟩
  | 6 => ⟨S128x64, .f32⟩
  | 7 => ⟨S64x64, .f32⟩
  | 8 => ⟨S64, .f32⟩
  | 9 => ⟨S64, .f32⟩
  | 10 => ⟨S64, .f32⟩
  | 11 => ⟨S64x16, .f32⟩
  | 12 => ⟨S16, .f32⟩
  | 13 => ⟨S100000x64, .f32⟩
  | 14 => ⟨S1x2048, .i32⟩
  | 15 => ⟨S2048, .i32⟩
  | 16 => ⟨S1x2048, .i32⟩
  | 17 => ⟨S2048, .i32⟩
  | 18 => ⟨S_, .i32⟩
  | 19 => ⟨S2048, .i32⟩
  | 20 => ⟨S2048, .i1⟩
  | 21 => ⟨S_, .i32⟩
  | 22 => ⟨S2048, .i32⟩
  | 23 => ⟨S2048, .i32⟩
  | 24 => ⟨S2048, .i32⟩
  | 25 => ⟨S2048x1, .i32⟩
  | 26 => ⟨S2048x64, .f32⟩
  | 27 => ⟨S2048x64, .f32⟩
  | 28 => ⟨S2048x64, .f32⟩
  | 29 => ⟨S_, .f32⟩
  | 30 => ⟨S64x64, .f32⟩
  | 31 => ⟨S2048x1, .i32⟩
  | 32 => ⟨S64x64, .f32⟩
  | 33 => ⟨S_, .f32⟩
  | 34 => ⟨S2048x1, .f32⟩
  | 35 => ⟨S_, .f32⟩
  | 36 => ⟨S64x1, .f32⟩
  | 37 => ⟨S2048x1, .i32⟩
  | 38 => ⟨S64x1, .f32⟩
  | 39 => ⟨S_, .f32⟩
  | 40 => ⟨S64x1, .f32⟩
  | 41 => ⟨S64x1, .f32⟩
  | 42 => ⟨S64x64, .f32⟩
  | 43 => ⟨S64x64, .f32⟩
  | 44 => ⟨S64x64, .f32⟩
  | 45 => ⟨S_, .f32⟩
  | 46 => ⟨S64x64, .f32⟩
  | 47 => ⟨S64x64, .f32⟩
  | 48 => ⟨S_, .i32⟩
  | 49 => ⟨S2048, .i32⟩
  | 50 => ⟨S2048, .i1⟩
  | 51 => ⟨S_, .i32⟩
  | 52 => ⟨S2048, .i32⟩
  | 53 => ⟨S2048, .i32⟩
  | 54 => ⟨S2048, .i32⟩
  | 55 => ⟨S2048x1, .i32⟩
  | 56 => ⟨S2048x64, .f32⟩
  | 57 => ⟨S2048x64, .f32⟩
  | 58 => ⟨S2048x64, .f32⟩
  | 59 => ⟨S_, .f32⟩
  | 60 => ⟨S64x64, .f32⟩
  | 61 => ⟨S2048x1, .i32⟩
  | 62 => ⟨S64x64, .f32⟩
  | 63 => ⟨S_, .f32⟩
  | 64 => ⟨S2048x1, .f32⟩
  | 65 => ⟨S_, .f32⟩
  | 66 => ⟨S64x1, .f32⟩
  | 67 => ⟨S2048x1, .i32⟩
  | 68 => ⟨S64x1, .f32⟩
  | 69 => ⟨S_, .f32⟩
  | 70 => ⟨S64x1, .f32⟩
  | 71 => ⟨S64x1, .f32⟩
  | 72 => ⟨S64x64, .f32⟩
  | 73 => ⟨S64x64, .f32⟩
  | 74 => ⟨S64x64, .f32⟩
  | 75 => ⟨S_, .f32⟩
  | 76 => ⟨S64x64, .f32⟩
  | 77 => ⟨S64x64, .f32⟩
  | 78 => ⟨S64x64, .f32⟩
  | 79 => ⟨S1x64, .f32⟩
  | 80 => ⟨S64x64, .f32⟩
  | 81 => ⟨S64x64, .f32⟩
  | 82 => ⟨S1x2000000, .i32⟩
  | 83 => ⟨S2000000, .i32⟩
  | 84 => ⟨S1x2000000, .i32⟩
  | 85 => ⟨S2000000, .i32⟩
  | 86 => ⟨S_, .f32⟩
  | 87 => ⟨S2000000x1, .f32⟩
  | 88 => ⟨S_, .f32⟩
  | 89 => ⟨S100000x1, .f32⟩
  | 90 => ⟨S2000000x1, .i32⟩
  | 91 => ⟨S100000x1, .f32⟩
  | 92 => ⟨S_, .f32⟩
  | 93 => ⟨S100000x1, .f32⟩
  | 94 => ⟨S100000x1, .f32⟩
  | 95 => ⟨S_, .f32⟩
  | 96 => ⟨S100000x1, .f32⟩
  | 97 => ⟨S100000x1, .f32⟩
  | 98 => ⟨S_, .i32⟩
  | 99 => ⟨S2000000, .i32⟩
  | 100 => ⟨S2000000, .i1⟩
  | 101 => ⟨S_, .i32⟩
  | 102 => ⟨S2000000, .i32⟩
  | 103 => ⟨S2000000, .i32⟩
  | 104 => ⟨S2000000, .i32⟩
  | 105 => ⟨S2000000x1, .i32⟩
  | 106 => ⟨S2000000x64, .f32⟩
  | 107 => ⟨S_, .i32⟩
  | 108 => ⟨S2000000, .i32⟩
  | 109 => ⟨S2000000, .i1⟩
  | 110 => ⟨S_, .i32⟩
  | 111 => ⟨S2000000, .i32⟩
  | 112 => ⟨S2000000, .i32⟩
  | 113 => ⟨S2000000, .i32⟩
  | 114 => ⟨S2000000x1, .i32⟩
  | 115 => ⟨S2000000x64, .f32⟩
  | 116 => ⟨S2000000x64, .f32⟩
  | 117 => ⟨S_, .f32⟩
  | 118 => ⟨S100000x64, .f32⟩
  | 119 => ⟨S2000000x1, .i32⟩
  | 120 => ⟨S100000x64, .f32⟩
  | 121 => ⟨S1x64, .f32⟩
  | 122 => ⟨S100000x64, .f32⟩
  | 123 => ⟨S_, .i32⟩
  | 124 => ⟨S2000000, .i32⟩
  | 125 => ⟨S2000000, .i1⟩
  | 126 => ⟨S_, .i32⟩
  | 127 => ⟨S2000000, .i32⟩
  | _ => ⟨S100000x128, .f32⟩

abbrev hbmTy0_1 (i : Nat) : BufTy := match i % 128 with
  | 0 => ⟨S2000000, .i32⟩
  | 1 => ⟨S2000000, .i32⟩
  | 2 => ⟨S2000000x1, .i32⟩
  | 3 => ⟨S2000000x64, .f32⟩
  | 4 => ⟨S_, .i32⟩
  | 5 => ⟨S2000000, .i32⟩
  | 6 => ⟨S2000000, .i1⟩
  | 7 => ⟨S_, .i32⟩
  | 8 => ⟨S2000000, .i32⟩
  | 9 => ⟨S2000000, .i32⟩
  | 10 => ⟨S2000000, .i32⟩
  | 11 => ⟨S2000000x1, .i32⟩
  | 12 => ⟨S2000000x64, .f32⟩
  | 13 => ⟨S2000000x64, .f32⟩
  | 14 => ⟨S_, .f32⟩
  | 15 => ⟨S100000x64, .f32⟩
  | 16 => ⟨S2000000x1, .i32⟩
  | 17 => ⟨S100000x64, .f32⟩
  | 18 => ⟨S1x64, .f32⟩
  | 19 => ⟨S1x16, .f32⟩
  | 20 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x1, .f32⟩
  | .local _ .vmem, ⟨8, _⟩ => ⟨S5000x1, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x1, .f32⟩
  | .local _ .vmem, ⟨15, _⟩ => ⟨S5000x1, .f32⟩
  | .local _ .vmem, ⟨16, _⟩ => ⟨S1x64, .f32⟩
  | .local _ .vmem, ⟨17, _⟩ => ⟨S64x16, .f32⟩
  | .local _ .vmem, ⟨18, _⟩ => ⟨S1x16, .f32⟩
  | .local _ .vmem, ⟨19, _⟩ => ⟨S5000x16, .f32⟩
  | .local _ .vmem, ⟨20, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call0_cst : Ref sig .tc := ⟨.hbm, 45, rfl⟩
abbrev main_call0_v0 : Ref sig .tc := ⟨.hbm, 46, rfl⟩
abbrev main_v26 : Ref sig .tc := ⟨.hbm, 47, rfl⟩
abbrev main_c_4 : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_call1_cst : Ref sig .tc := ⟨.hbm, 75, rfl⟩
abbrev main_call1_v0 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_10 : Ref sig .tc := ⟨.hbm, 86, rfl⟩
abbrev main_v57 : Ref sig .tc := ⟨.hbm, 87, rfl⟩
abbrev main_cst_11 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_v62 : Ref sig .tc := ⟨.hbm, 94, rfl⟩
abbrev main_cst_13 : Ref sig .tc := ⟨.hbm, 95, rfl⟩
abbrev main_v63 : Ref sig .tc := ⟨.hbm, 96, rfl⟩
abbrev main_v64 : Ref sig .tc := ⟨.hbm, 97, rfl⟩
abbrev main_c_14 : Ref sig .tc := ⟨.hbm, 98, rfl⟩
abbrev main_v65 : Ref sig .tc := ⟨.hbm, 99, rfl⟩
abbrev main_v66 : Ref sig .tc := ⟨.hbm, 100, rfl⟩
abbrev main_c_15 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_16 : Ref sig .tc := ⟨.hbm, 107, rfl⟩
abbrev main_v72 : Ref sig .tc := ⟨.hbm, 108, rfl⟩
abbrev main_v73 : Ref sig .tc := ⟨.hbm, 109, rfl⟩
abbrev main_c_17 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_18 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_c_19 : Ref sig .tc := ⟨.hbm, 123, rfl⟩
abbrev main_v85 : Ref sig .tc := ⟨.hbm, 124, rfl⟩
abbrev main_v86 : Ref sig .tc := ⟨.hbm, 125, rfl⟩
abbrev main_c_20 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_c_21 : Ref sig .tc := ⟨.hbm, 132, rfl⟩
abbrev main_v92 : Ref sig .tc := ⟨.hbm, 133, rfl⟩
abbrev main_v93 : Ref sig .tc := ⟨.hbm, 134, rfl⟩
abbrev main_c_22 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_23 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  slices_S2x2048_S1x2048_0_0 : S2x2048.Slices ![0, 0] S1x2048
  shapeCasts_S1x2048_S2048 : S1x2048.ShapeCasts S2048
  slices_S2x2048_S1x2048_1_0 : S2x2048.Slices ![1, 0] S1x2048
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  bcast_S_S64x64 : S_.BroadcastsInDim S64x64 (![] : Fin 0 → Fin S64x64.rank)
  bcast_S_S2048x1 : S_.BroadcastsInDim S2048x1 (![] : Fin 0 → Fin S2048x1.rank)
  bcast_S_S64x1 : S_.BroadcastsInDim S64x1 (![] : Fin 0 → Fin S64x1.rank)
  bcast_S64x1_S64x64_0_1 : S64x1.BroadcastsInDim S64x64 (![0, 1] : Fin 2 → Fin S64x64.rank)
  shapeCasts_S64_S1x64 : S64.ShapeCasts S1x64
  bcast_S1x64_S64x64_0_1 : S1x64.BroadcastsInDim S64x64 (![0, 1] : Fin 2 → Fin S64x64.rank)
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000x1 : S_.BroadcastsInDim S2000000x1 (![] : Fin 0 → Fin S2000000x1.rank)
  bcast_S_S100000x1 : S_.BroadcastsInDim S100000x1 (![] : Fin 0 → Fin S100000x1.rank)
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S_S100000x64 : S_.BroadcastsInDim S100000x64 (![] : Fin 0 → Fin S100000x64.rank)
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  dot_S5000x128_S128x64_S5000x64_1_0_0_1_n_n_wf : DotDims.WF S5000x128 S128x64 S5000x64 [1] [0] [0] [1] [] []
  gather_S64x64_S2048x1_S2048x64_1_0_n_n_0_1_164_wf : GatherDims.WF S64x64 S2048x1 S2048x64 [1] [0] [] [0] [] 1 ![1, 64]
  scatter_S64x64_S2048x1_S2048x64_1_0_0_1_wf : ScatterDims.WF S64x64 S2048x1 S2048x64 [1] [0] [0] 1
  scatter_S64x1_S2048x1_S2048x1_1_0_0_1_wf : ScatterDims.WF S64x1 S2048x1 S2048x1 [1] [0] [0] 1
  dot_S64x64_S64x64_S64x64_1_0_0_1_n_n_wf : DotDims.WF S64x64 S64x64 S64x64 [1] [0] [0] [1] [] []
  scatter_S100000x1_S2000000x1_S2000000x1_1_0_0_1_wf : ScatterDims.WF S100000x1 S2000000x1 S2000000x1 [1] [0] [0] 1
  gather_S100000x64_S2000000x1_S2000000x64_1_0_n_n_0_1_164_wf : GatherDims.WF S100000x64 S2000000x1 S2000000x64 [1] [0] [] [0] [] 1 ![1, 64]
  gather_S64x64_S2000000x1_S2000000x64_1_0_n_n_0_1_164_wf : GatherDims.WF S64x64 S2000000x1 S2000000x64 [1] [0] [] [0] [] 1 ![1, 64]
  scatter_S100000x64_S2000000x1_S2000000x64_1_0_0_1_wf : ScatterDims.WF S100000x64 S2000000x1 S2000000x64 [1] [0] [0] 1
  dot_S5000x64_S64x16_S5000x16_1_0_0_1_n_n_wf : DotDims.WF S5000x64 S64x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x16.size a ≤ S64x16.size a
  hwx2_3 : ∀ i : grid2.Coords, EltTy.bits .f32 = 32 ∨ (Rect.block (s := S64x16) S64x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x16.size a ≤ S100000x16.size a
  hwx2_5 : ∀ i : grid2.Coords, EltTy.bits .f32 = 32 ∨ (Rect.block (s := S100000x16) S5000x16.size (cc2_transform_5 i) (hinb2_5 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S64x64_S2048x1_S2048x64_1_0_n_n_0_1_164 : GatherDims S64x64 S2048x1 S2048x64 where
  offsetDims := [1]
  collapsedSliceDims := [0]
  operandBatchingDims := []
  startIndicesBatchingDims := []
  startIndexMap := [0]
  indexVectorDim := 1
  sliceSizes := ![1, 64]
  wf := gather_S64x64_S2048x1_S2048x64_1_0_n_n_0_1_164_wf
def scatter_S64x64_S2048x1_S2048x64_1_0_0_1 : ScatterDims S64x64 S2048x1 S2048x64 where
  updateWindowDims := [1]
  insertedWindowDims := [0]
  scatterDimsToOperandDims := [0]
  indexVectorDim := 1
  wf := scatter_S64x64_S2048x1_S2048x64_1_0_0_1_wf
def scatter_S64x1_S2048x1_S2048x1_1_0_0_1 : ScatterDims S64x1 S2048x1 S2048x1 where
  updateWindowDims := [1]
  insertedWindowDims := [0]
  scatterDimsToOperandDims := [0]
  indexVectorDim := 1
  wf := scatter_S64x1_S2048x1_S2048x1_1_0_0_1_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def scatter_S100000x1_S2000000x1_S2000000x1_1_0_0_1 : ScatterDims S100000x1 S2000000x1 S2000000x1 where
  updateWindowDims := [1]
  insertedWindowDims := [0]
  scatterDimsToOperandDims := [0]
  indexVectorDim := 1
  wf := scatter_S100000x1_S2000000x1_S2000000x1_1_0_0_1_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def gather_S64x64_S2000000x1_S2000000x64_1_0_n_n_0_1_164 : GatherDims S64x64 S2000000x1 S2000000x64 where
  offsetDims := [1]
  collapsedSliceDims := [0]
  operandBatchingDims := []
  startIndicesBatchingDims := []
  startIndexMap := [0]
  indexVectorDim := 1
  sliceSizes := ![1, 64]
  wf := gather_S64x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v82) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v64) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v83) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v84) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v102) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v103) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S64x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v104) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v105) S5000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S64x64 : Shape := ⟨2, ![64, 64]⟩
abbrev S2x2000000 : Shape := ⟨2, ![2, 2000000]⟩
abbrev S2000000 : Shape := ⟨1, ![2000000]⟩
abbrev S2x2048 : Shape := ⟨2, ![2, 2048]⟩
abbrev S2048x1 : Shape := ⟨2, ![2048, 1]⟩
abbrev S128x64 : Shape := ⟨2, ![128, 64]⟩
abbrev S64 : Shape := ⟨1, ![64]⟩
abbrev S64x16 : Shape := ⟨2, ![64, 16]⟩
abbrev S16 : Shape := ⟨1, ![16]⟩
abbrev S100000x64 : Shape := ⟨2, ![100000, 64]⟩
abbrev S1x2048 : Shape := ⟨2, ![1, 2048]⟩
abbrev S2048 : Shape := ⟨1, ![2048]⟩
abbrev S_ : Shape := ⟨0, ![]⟩
abbrev S2048x64 : Shape := ⟨2, ![2048, 64]⟩
abbrev S64x1 : Shape := ⟨2, ![64, 1]⟩
abbrev S2000000x1 : Shape := ⟨2, ![2000000, 1]⟩
abbrev S2000000x64 : Shape := ⟨2, ![2000000, 64]⟩
abbrev S1x64 : Shape := ⟨2, ![1, 64]⟩
abbrev S1x2000000 : Shape := ⟨2, ![1, 2000000]⟩
abbrev S100000x1 : Shape := ⟨2, ![100000, 1]⟩
abbrev S100000x16 : Shape := ⟨2, ![100000, 16]⟩
abbrev S1x16 : Shape := ⟨2, ![1, 16]⟩

abbrev nBuf : Space → Nat
  | .hbm => 157
  | .vmem => 0
  | .smem => 0
  | _ => 0

abbrev hbmTy0_0 (i : Nat) : BufTy := match i % 128 with
  | 0 => ⟨S100000x128, .f32⟩
  | 1 => ⟨S64x64, .f32⟩
  | 2 => ⟨S2x2000000, .i32⟩
  | 3 => ⟨S2000000, .i32⟩
  | 4 => ⟨S2x2048, .i32⟩
  | 5 => ⟨S2048x1, .f32⟩
  | 6 => ⟨S128x64, .f32⟩
  | 7 => ⟨S64x64, .f32⟩
  | 8 => ⟨S64, .f32⟩
  | 9 => ⟨S64, .f32⟩
  | 10 => ⟨S64, .f32⟩
  | 11 => ⟨S64x16, .f32⟩
  | 12 => ⟨S16, .f32⟩
  | 13 => ⟨S100000x64, .f32⟩
  | 14 => ⟨S1x2048, .i32⟩
  | 15 => ⟨S2048, .i32⟩
  | 16 => ⟨S1x2048, .i32⟩
  | 17 => ⟨S2048, .i32⟩
  | 18 => ⟨S_, .i32⟩
  | 19 => ⟨S2048, .i32⟩
  | 20 => ⟨S2048, .i1⟩
  | 21 => ⟨S_, .i32⟩
  | 22 => ⟨S2048, .i32⟩
  | 23 => ⟨S2048, .i32⟩
  | 24 => ⟨S2048, .i32⟩
  | 25 => ⟨S2048x1, .i32⟩
  | 26 => ⟨S2048x64, .f32⟩
  | 27 => ⟨S2048x64, .f32⟩
  | 28 => ⟨S2048x64, .f32⟩
  | 29 => ⟨S_, .f32⟩
  | 30 => ⟨S64x64, .f32⟩
  | 31 => ⟨S2048x1, .i32⟩
  | 32 => ⟨S64x64, .f32⟩
  | 33 => ⟨S_, .f32⟩
  | 34 => ⟨S2048x1, .f32⟩
  | 35 => ⟨S_, .f32⟩
  | 36 => ⟨S64x1, .f32⟩
  | 37 => ⟨S2048x1, .i32⟩
  | 38 => ⟨S64x1, .f32⟩
  | 39 => ⟨S_, .f32⟩
  | 40 => ⟨S64x1, .f32⟩
  | 41 => ⟨S64x1, .f32⟩
  | 42 => ⟨S64x64, .f32⟩
  | 43 => ⟨S64x64, .f32⟩
  | 44 => ⟨S64x64, .f32⟩
  | 45 => ⟨S_, .f32⟩
  | 46 => ⟨S64x64, .f32⟩
  | 47 => ⟨S64x64, .f32⟩
  | 48 => ⟨S_, .i32⟩
  | 49 => ⟨S2048, .i32⟩
  | 50 => ⟨S2048, .i1⟩
  | 51 => ⟨S_, .i32⟩
  | 52 => ⟨S2048, .i32⟩
  | 53 => ⟨S2048, .i32⟩
  | 54 => ⟨S2048, .i32⟩
  | 55 => ⟨S2048x1, .i32⟩
  | 56 => ⟨S2048x64, .f32⟩
  | 57 => ⟨S2048x64, .f32⟩
  | 58 => ⟨S2048x64, .f32⟩
  | 59 => ⟨S_, .f32⟩
  | 60 => ⟨S64x64, .f32⟩
  | 61 => ⟨S2048x1, .i32⟩
  | 62 => ⟨S64x64, .f32⟩
  | 63 => ⟨S_, .f32⟩
  | 64 => ⟨S2048x1, .f32⟩
  | 65 => ⟨S_, .f32⟩
  | 66 => ⟨S64x1, .f32⟩
  | 67 => ⟨S2048x1, .i32⟩
  | 68 => ⟨S64x1, .f32⟩
  | 69 => ⟨S_, .f32⟩
  | 70 => ⟨S64x1, .f32⟩
  | 71 => ⟨S64x1, .f32⟩
  | 72 => ⟨S64x64, .f32⟩
  | 73 => ⟨S64x64, .f32⟩
  | 74 => ⟨S64x64, .f32⟩
  | 75 => ⟨S_, .f32⟩
  | 76 => ⟨S64x64, .f32⟩
  | 77 => ⟨S64x64, .f32⟩
  | 78 => ⟨S_, .i32⟩
  | 79 => ⟨S2000000, .i32⟩
  | 80 => ⟨S2000000, .i1⟩
  | 81 => ⟨S_, .i32⟩
  | 82 => ⟨S2000000, .i32⟩
  | 83 => ⟨S2000000, .i32⟩
  | 84 => ⟨S2000000, .i32⟩
  | 85 => ⟨S2000000x1, .i32⟩
  | 86 => ⟨S2000000x64, .f32⟩
  | 87 => ⟨S2000000x64, .f32⟩
  | 88 => ⟨S1x64, .f32⟩
  | 89 => ⟨S2000000x64, .f32⟩
  | 90 => ⟨S2000000x64, .f32⟩
  | 91 => ⟨S1x2000000, .i32⟩
  | 92 => ⟨S2000000, .i32⟩
  | 93 => ⟨S1x2000000, .i32⟩
  | 94 => ⟨S2000000, .i32⟩
  | 95 => ⟨S_, .i32⟩
  | 96 => ⟨S2000000, .i32⟩
  | 97 => ⟨S2000000, .i1⟩
  | 98 => ⟨S_, .i32⟩
  | 99 => ⟨S2000000, .i32⟩
  | 100 => ⟨S2000000, .i32⟩
  | 101 => ⟨S2000000, .i32⟩
  | 102 => ⟨S2000000x1, .i32⟩
  | 103 => ⟨S2000000x64, .f32⟩
  | 104 => ⟨S2000000x64, .f32⟩
  | 105 => ⟨S_, .f32⟩
  | 106 => ⟨S100000x64, .f32⟩
  | 107 => ⟨S2000000x1, .i32⟩
  | 108 => ⟨S100000x64, .f32⟩
  | 109 => ⟨S_, .f32⟩
  | 110 => ⟨S2000000x1, .f32⟩
  | 111 => ⟨S_, .f32⟩
  | 112 => ⟨S100000x1, .f32⟩
  | 113 => ⟨S2000000x1, .i32⟩
  | 114 => ⟨S100000x1, .f32⟩
  | 115 => ⟨S_, .f32⟩
  | 116 => ⟨S100000x1, .f32⟩
  | 117 => ⟨S100000x1, .f32⟩
  | 118 => ⟨S100000x64, .f32⟩
  | 119 => ⟨S100000x64, .f32⟩
  | 120 => ⟨S1x64, .f32⟩
  | 121 => ⟨S100000x64, .f32⟩
  | 122 => ⟨S100000x64, .f32⟩
  | 123 => ⟨S100000x64, .f32⟩
  | 124 => ⟨S_, .i32⟩
  | 125 => ⟨S2000000, .i32⟩
  | 126 => ⟨S2000000, .i1⟩
  | 127 => ⟨S_, .i32⟩
  | _ => ⟨S100000x128, .f32⟩

abbrev hbmTy0_1 (i : Nat) : BufTy := match i % 128 with
  | 0 => ⟨S2000000, .i32⟩
  | 1 => ⟨S2000000, .i32⟩
  | 2 => ⟨S2000000, .i32⟩
  | 3 => ⟨S2000000x1, .i32⟩
  | 4 => ⟨S2000000x64, .f32⟩
  | 5 => ⟨S2000000x64, .f32⟩
  | 6 => ⟨S_, .f32⟩
  | 7 => ⟨S100000x64, .f32⟩
  | 8 => ⟨S2000000x1, .i32⟩
  | 9 => ⟨S100000x64, .f32⟩
  | 10 => ⟨S_, .f32⟩
  | 11 => ⟨S2000000x1, .f32⟩
  | 12 => ⟨S_, .f32⟩
  | 13 => ⟨S100000x1, .f32⟩
  | 14 => ⟨S2000000x1, .i32⟩
  | 15 => ⟨S100000x1, .f32⟩
  | 16 => ⟨S_, .f32⟩
  | 17 => ⟨S100000x1, .f32⟩
  | 18 => ⟨S100000x1, .f32⟩
  | 19 => ⟨S100000x64, .f32⟩
  | 20 => ⟨S100000x64, .f32⟩
  | 21 => ⟨S1x64, .f32⟩
  | 22 => ⟨S100000x64, .f32⟩
  | 23 => ⟨S100000x64, .f32⟩
  | 24 => ⟨S100000x64, .f32⟩
  | 25 => ⟨S100000x16, .f32⟩
  | 26 => ⟨S1x16, .f32⟩
  | 27 => ⟨S100000x16, .f32⟩
  | 28 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call0_cst : Ref sig .tc := ⟨.hbm, 45, rfl⟩
abbrev main_call0_v0 : Ref sig .tc := ⟨.hbm, 46, rfl⟩
abbrev main_v26 : Ref sig .tc := ⟨.hbm, 47, rfl⟩
abbrev main_c_4 : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_call1_cst : Ref sig .tc := ⟨.hbm, 75, rfl⟩
abbrev main_call1_v0 : Ref sig .tc := ⟨.hbm, 76, rfl⟩
abbrev main_v48 : Ref sig .tc := ⟨.hbm, 77, rfl⟩
abbrev main_c_10 : Ref sig .tc := ⟨.hbm, 78, rfl⟩
abbrev main_v49 : Ref sig .tc := ⟨.hbm, 79, rfl⟩
abbrev main_v50 : Ref sig .tc := ⟨.hbm, 80, rfl⟩
abbrev main_c_11 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_12 : Ref sig .tc := ⟨.hbm, 95, rfl⟩
abbrev main_v64 : Ref sig .tc := ⟨.hbm, 96, rfl⟩
abbrev main_v65 : Ref sig .tc := ⟨.hbm, 97, rfl⟩
abbrev main_c_13 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_14 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_15 : Ref sig .tc := ⟨.hbm, 109, rfl⟩
abbrev main_v75 : Ref sig .tc := ⟨.hbm, 110, rfl⟩
abbrev main_cst_16 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_17 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_c_18 : Ref sig .tc := ⟨.hbm, 124, rfl⟩
abbrev main_v87 : Ref sig .tc := ⟨.hbm, 125, rfl⟩
abbrev main_v88 : Ref sig .tc := ⟨.hbm, 126, rfl⟩
abbrev main_c_19 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_20 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_21 : Ref sig .tc := ⟨.hbm, 138, rfl⟩
abbrev main_v98 : Ref sig .tc := ⟨.hbm, 139, rfl⟩
abbrev main_cst_22 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_23 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩

abbrev nD : Nat := 1
abbrev τ : Topo := Topo.v7x

variable {F : FTy → Type} [FloatOps F]

class Facts₀ : Prop where
  slices_S2x2048_S1x2048_0_0 : S2x2048.Slices ![0, 0] S1x2048
  shapeCasts_S1x2048_S2048 : S1x2048.ShapeCasts S2048
  slices_S2x2048_S1x2048_1_0 : S2x2048.Slices ![1, 0] S1x2048
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  bcast_S_S64x64 : S_.BroadcastsInDim S64x64 (![] : Fin 0 → Fin S64x64.rank)
  bcast_S_S2048x1 : S_.BroadcastsInDim S2048x1 (![] : Fin 0 → Fin S2048x1.rank)
  bcast_S_S64x1 : S_.BroadcastsInDim S64x1 (![] : Fin 0 → Fin S64x1.rank)
  bcast_S64x1_S64x64_0_1 : S64x1.BroadcastsInDim S64x64 (![0, 1] : Fin 2 → Fin S64x64.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S64_S1x64_1 : S64.BroadcastsInDim S1x64 (![1] : Fin 1 → Fin S1x64.rank)
  bcast_S1x64_S2000000x64_0_1 : S1x64.BroadcastsInDim S2000000x64 (![0, 1] : Fin 2 → Fin S2000000x64.rank)
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S100000x64 : S_.BroadcastsInDim S100000x64 (![] : Fin 0 → Fin S100000x64.rank)
  bcast_S_S2000000x1 : S_.BroadcastsInDim S2000000x1 (![] : Fin 0 → Fin S2000000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x128_S128x64_S100000x64_1_0_0_1_n_n_wf : DotDims.WF S100000x128 S128x64 S100000x64 [1] [0] [0] [1] [] []
  gather_S64x64_S2048x1_S2048x64_1_0_n_n_0_1_164_wf : GatherDims.WF S64x64 S2048x1 S2048x64 [1] [0] [] [0] [] 1 ![1, 64]
  scatter_S64x64_S2048x1_S2048x64_1_0_0_1_wf : ScatterDims.WF S64x64 S2048x1 S2048x64 [1] [0] [0] 1
  scatter_S64x1_S2048x1_S2048x1_1_0_0_1_wf : ScatterDims.WF S64x1 S2048x1 S2048x1 [1] [0] [0] 1
  gather_S64x64_S2000000x1_S2000000x64_1_0_n_n_0_1_164_wf : GatherDims.WF S64x64 S2000000x1 S2000000x64 [1] [0] [] [0] [] 1 ![1, 64]
  dot_S2000000x64_S64x64_S2000000x64_1_0_0_1_n_n_wf : DotDims.WF S2000000x64 S64x64 S2000000x64 [1] [0] [0] [1] [] []
  gather_S100000x64_S2000000x1_S2000000x64_1_0_n_n_0_1_164_wf : GatherDims.WF S100000x64 S2000000x1 S2000000x64 [1] [0] [] [0] [] 1 ![1, 64]
  scatter_S100000x64_S2000000x1_S2000000x64_1_0_0_1_wf : ScatterDims.WF S100000x64 S2000000x1 S2000000x64 [1] [0] [0] 1
  scatter_S100000x1_S2000000x1_S2000000x1_1_0_0_1_wf : ScatterDims.WF S100000x1 S2000000x1 S2000000x1 [1] [0] [0] 1
  dot_S100000x64_S64x16_S100000x16_1_0_0_1_n_n_wf : DotDims.WF S100000x64 S64x16 S100000x16 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S64x64_S2048x1_S2048x64_1_0_n_n_0_1_164 : GatherDims S64x64 S2048x1 S2048x64 where
  offsetDims := [1]
  collapsedSliceDims := [0]
  operandBatchingDims := []
  startIndicesBatchingDims := []
  startIndexMap := [0]
  indexVectorDim := 1
  sliceSizes := ![1, 64]
  wf := gather_S64x64_S2048x1_S2048x64_1_0_n_n_0_1_164_wf
def scatter_S64x64_S2048x1_S2048x64_1_0_0_1 : ScatterDims S64x64 S2048x1 S2048x64 where
  updateWindowDims := [1]
  insertedWindowDims := [0]
  scatterDimsToOperandDims := [0]
  indexVectorDim := 1
  wf := scatter_S64x64_S2048x1_S2048x64_1_0_0_1_wf
def scatter_S64x1_S2048x1_S2048x1_1_0_0_1 : ScatterDims S64x1 S2048x1 S2048x1 where
  updateWindowDims := [1]
  insertedWindowDims := [0]
  scatterDimsToOperandDims := [0]
  indexVectorDim := 1
  wf := scatter_S64x1_S2048x1_S2048x1_1_0_0_1_wf
def gather_S64x64_S2000000x1_S2000000x64_1_0_n_n_0_1_164 : GatherDims S64x64 S2000000x1 S2000000x64 where
  offsetDims := [1]
  collapsedSliceDims := [0]
  operandBatchingDims := []
  startIndicesBatchingDims := []
  startIndexMap := [0]
  indexVectorDim := 1
  sliceSizes := ![1, 64]
  wf := gather_S64x64_S2000000x1_S2000000x64_1_0_n_n_0_1_164_wf
def dot_S2000000x64_S64x64_S2000000x64_1_0_0_1_n_n : DotDims S2000000x64 S64x64 S2000000x64 where
  lhsContracting := [1]
  rhsContracting := [0]
  lhsNonContracting := [0]
  rhsNonContracting := [1]
  lhsBatch := []
  rhsBatch := []
  wf := dot_S2000000x64_S64x64_S2000000x64_1_0_0_1_n_n_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def scatter_S100000x1_S2000000x1_S2000000x1_1_0_0_1 : ScatterDims S100000x1 S2000000x1 S2000000x1 where
  updateWindowDims := [1]
  insertedWindowDims := [0]
  scatterDimsToOperandDims := [0]
  indexVectorDim := 1
  wf := scatter_S100000x1_S2000000x1_S2000000x1_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.LibMatProd.lean ====
import Idealize.ShloMosaic.PureOps.Ideal
import Idealize.ShloMosaic.Lib.ValueIdx
import Mathlib.Data.EReal.Basic
import Mathlib.Algebra.BigOperators.Group.Finset.Basic

/-!
# A matrix product on extended reals, index by index

`mmP A B` is the product of an `M × K` and a `K × N` array of extended reals: entry `(r, s)` is the sum over the
contracted axis of `A (r, j) * B (j, s)`. Every tiled matrix product of the program is this function of its two operand
arrays, whatever the tiling.
-/

open Idealize.ShloMosaic Idealize.ShloMosaic.ValueIdx

namespace MatProd

/-- The `M × K` by `K × N` product on extended reals, as a function of the result's index. -/
noncomputable def mmP {M K N : ℕ} (A : (⟨2, ![M, K]⟩ : Shape).Idx → EReal) (B : (⟨2, ![K, N]⟩ : Shape).Idx → EReal) :
    (⟨2, ![M, N]⟩ : Shape).Idx → EReal :=
  fun idx => ∑ j : Fin K, A (ix2 (idx 0) j) * B (ix2 j (idx 1))

/-- Entry `(r, s)` of the product is the sum of the products along the contracted axis. -/
theorem mmP_apply {M K N : ℕ} (A : (⟨2, ![M, K]⟩ : Shape).Idx → EReal) (B : (⟨2, ![K, N]⟩ : Shape).Idx → EReal)
    (r : Fin M) (s : Fin N) : mmP A B (ix2 r s) = ∑ j : Fin K, A (ix2 r j) * B (ix2 j s) := rfl

end MatProd
-- ==== Proof.KSpec.lean ====
/-
  What each of the three tiled stages computes, as one function of whole arrays of extended reals, index by index.

  * the input projection is the matrix product of the node features with the projection weights;
  * `postAct a inv b` is the mean-and-activate stage: entry (i, k) is tanh (a (i, k) · inv (i, 0) + b (0, k)) — the
    aggregated messages of node i scaled by the reciprocal of its clamped in-degree, plus the bias, through tanh;
  * `classify h w fb` is the classifier: entry (i, j) is (∑ k, h (i, k) · w (k, j)) + fb (0, j).
-/
import Idealize.ShloMosaic.PureOps.Ideal
import Idealize.ShloMosaic.Lib.ValueIdx
import proofs.«402911_j1039382085697_3_alg».proof.Proof.LibMatProd

noncomputable section

namespace NodeStages

open Idealize.ShloMosaic Idealize.ShloMosaic.ValueIdx MatProd

/-- Mean, bias and tanh: entry (i, k) is tanh (a (i, k) · inv (i, 0) + b (0, k)). -/
def postAct {N D : ℕ} (a : (⟨2, ![N, D]⟩ : Shape).Idx → EReal) (inv : (⟨2, ![N, 1]⟩ : Shape).Idx → EReal)
    (b : (⟨2, ![1, D]⟩ : Shape).Idx → EReal) : (⟨2, ![N, D]⟩ : Shape).Idx → EReal :=
  fun j => Ideal.tanh (a j * inv (ix2 (j 0) (0 : Fin 1)) + b (ix2 (0 : Fin 1) (j 1)))

theorem postAct_apply {N D : ℕ} (a : (⟨2, ![N, D]⟩ : Shape).Idx → EReal) (inv : (⟨2, ![N, 1]⟩ : Shape).Idx → EReal)
    (b : (⟨2, ![1, D]⟩ : Shape).Idx → EReal) (i : Fin N) (k : Fin D) :
    postAct a inv b (ix2 i k) = Ideal.tanh (a (ix2 i k) * inv (ix2 i (0 : Fin 1)) + b (ix2 (0 : Fin 1) k)) := rfl

/-- The classifier: entry (i, j) is the row of `h` against the column of `w`, plus the bias of class j. -/
def classify {N D C : ℕ} (h : (⟨2, ![N, D]⟩ : Shape).Idx → EReal) (w : (⟨2, ![D, C]⟩ : Shape).Idx → EReal)
    (fb : (⟨2, ![1, C]⟩ : Shape).Idx → EReal) : (⟨2, ![N, C]⟩ : Shape).Idx → EReal :=
  fun j => mmP h w j + fb (ix2 (0 : Fin 1) (j 1))

theorem classify_apply {N D C : ℕ} (h : (⟨2, ![N, D]⟩ : Shape).Idx → EReal) (w : (⟨2, ![D, C]⟩ : Shape).Idx → EReal)
    (fb : (⟨2, ![1, C]⟩ : Shape).Idx → EReal) (i : Fin N) (j : Fin C) :
    classify h w fb (ix2 i j) = (∑ k : Fin D, h (ix2 i k) * w (ix2 k j)) + fb (ix2 (0 : Fin 1) j) := rfl

end NodeStages

end
-- ==== Proof.KChain.lean ====
/-
  The tiled program's computation outside its three tiled stages, written once as functions of the argument arrays
  (at exact arithmetic), and the whole result `kOut` composed of them and of the three stages' functions.

  Relation graph (64 relations, 2048 relation edges): one convolution step is
  h ↦ h + (segment sum over the destination relation of h[source] · edge weight) / max (in-degree, 1), followed by
  relu; two steps give the relation features `kRelH`.  The per-relation weight table is `kWT` = relH · W + bias.
  Node graph (100000 nodes, 2000000 edges): `kSrc`, `kDst` are the edges' endpoints as index columns (a negative
  source wrapped once by the table's height), `kEt` the edges' relation, `kMx` = max (in-degree, 1) per node,
  `kInv` its reciprocal, and `kAgg x wt` the segment sum over destination nodes of x[source] · wt[relation].
-/
import proofs.«402911_j1039382085697_3_alg».proof.Proof.Gen.KernelIdeal
import proofs.«402911_j1039382085697_3_alg».proof.Proof.KSpec

noncomputable section

namespace Cert.KernelIdeal.Chain

open Cert.KernelIdeal Cert.KernelIdeal.Facts₀ Cert.KernelIdeal.Facts Idealize.ShloMosaic NodeStages MatProd

/-- An array of the program at exact arithmetic. -/
abbrev Arr (S : Shape) (e : EltTy) := (⟨S, e⟩ : BufTy).Contents (Elt Ideal)

/-! ## The relation graph -/

/-- Row 0 of the relation edge list: the source relation of each relation edge. -/
def relSrcRow (a4 : Arr S2x2048 .i32) : Arr S2048 .i32 :=
  shapeCast _ (extractStridedSlice S1x2048 ![0, 0] a4 slices_S2x2048_S1x2048_0_0) shapeCasts_S1x2048_S2048

/-- The source relations as an index column, a negative one wrapped once by 64. -/
def kSrcR (a4 : Arr S2x2048 .i32) : Arr S2048x1 .i32 :=
  broadcastInDim S2048x1 ![0] bcast_S2048_S2048x1_0
    (select (cmpi .slt (relSrcRow a4) (broadcastInDim S2048 ![] bcast_S_S2048 (constantI S_ 32 0#32)))
      (addi (relSrcRow a4) (broadcastInDim S2048 ![] bcast_S_S2048 (constantI S_ 32 64#32))) (relSrcRow a4))

/-- The destination relations (row 1 of the relation edge list) as an index column. -/
def kDstR (a4 : Arr S2x2048 .i32) : Arr S2048x1 .i32 :=
  broadcastInDim S2048x1 ![0] bcast_S2048_S2048x1_0
    (shapeCast _ (extractStridedSlice S1x2048 ![1, 0] a4 slices_S2x2048_S1x2048_1_0) shapeCasts_S1x2048_S2048)

/-- One convolution step on the relation graph: h plus the mean over incoming relation edges of h[source] · weight. -/
def kRconv (h : Arr S64x64 .f32) (a4 : Arr S2x2048 .i32) (a5 : Arr S2048x1 .f32) : Arr S64x64 .f32 :=
  addf h (Host.divf
    (Host.scatterAdd scatter_S64x64_S2048x1_S2048x64_1_0_0_1
      (broadcastInDim S64x64 ![] bcast_S_S64x64 (constant (F := Ideal) S_ .f32 0x00000000#32)) (kDstR a4)
      (mulf (Host.gather gather_S64x64_S2048x1_S2048x64_1_0_n_n_0_1_164 h (kSrcR a4))
        (broadcastInDim S2048x64 ![0, 1] bcast_S2048x1_S2048x64_0_1 a5)))
    (broadcastInDim S64x64 ![0, 1] bcast_S64x1_S64x64_0_1
      (maximumf
        (Host.scatterAdd scatter_S64x1_S2048x1_S2048x1_1_0_0_1
          (broadcastInDim S64x1 ![] bcast_S_S64x1 (constant (F := Ideal) S_ .f32 0x00000000#32)) (kDstR a4)
          (broadcastInDim S2048x1 ![] bcast_S_S2048x1 (constant (F := Ideal) S_ .f32 0x3F800000#32)))
        (broadcastInDim S64x1 ![] bcast_S_S64x1 (constant (F := Ideal) S_ .f32 0x3F800000#32)))))

/-- relu on the relation features. -/
def kRelu (h : Arr S64x64 .f32) : Arr S64x64 .f32 :=
  maximumf h (broadcastInDim S64x64 ![] bcast_S_S64x64 (constant (F := Ideal) S_ .f32 0x00000000#32))

/-- The relation features after two convolution steps. -/
def kRelH (a1 : Arr S64x64 .f32) (a4 : Arr S2x2048 .i32) (a5 : Arr S2048x1 .f32) : Arr S64x64 .f32 :=
  kRelu (kRconv (kRelu (kRconv a1 a4 a5)) a4 a5)

/-- The per-relation weight table: relation features times the weight matrix, plus the bias row. -/
def kWT (h : Arr S64x64 .f32) (a7 : Arr S64x64 .f32) (a8 : Arr S64 .f32) : Arr S64x64 .f32 :=
  addf (F := Ideal) (Host.dotGeneral (F := Ideal) (φ₁ := .f32) (φ₂ := .f32) dot_S64x64_S64x64_S64x64_1_0_0_1_n_n none h a7)
    (broadcastInDim S64x64 ![0, 1] bcast_S1x64_S64x64_0_1 (shapeCast _ a8 shapeCasts_S64_S1x64))

/-! ## The node graph -/

/-- Row 0 of the edge list: each edge's source node. -/
def srcRow (a2 : Arr S2x2000000 .i32) : Arr S2000000 .i32 :=
  shapeCast _ (extractStridedSlice S1x2000000 ![0, 0] a2 slices_S2x2000000_S1x2000000_0_0) shapeCasts_S1x2000000_S2000000

/-- The source nodes as an index column, a negative one wrapped once by 100000. -/
def kSrc (a2 : Arr S2x2000000 .i32) : Arr S2000000x1 .i32 :=
  broadcastInDim S2000000x1 ![0] bcast_S2000000_S2000000x1_0
    (select (cmpi .slt (srcRow a2) (broadcastInDim S2000000 ![] bcast_S_S2000000 (constantI S_ 32 0#32)))
      (addi (srcRow a2) (broadcastInDim S2000000 ![] bcast_S_S2000000 (constantI S_ 32 100000#32))) (srcRow a2))

/-- The destination nodes (row 1 of the edge list) as an index column. -/
def kDst (a2 : Arr S2x2000000 .i32) : Arr S2000000x1 .i32 :=
  broadcastInDim S2000000x1 ![0] bcast_S2000000_S2000000x1_0
    (shapeCast _ (extractStridedSlice S1x2000000 ![1, 0] a2 slices_S2x2000000_S1x2000000_1_0) shapeCasts_S1x2000000_S2000000)

/-- The edges' relations as an index column, a negative one wrapped once by 64. -/
def kEt (a3 : Arr S2000000 .i32) : Arr S2000000x1 .i32 :=
  broadcastInDim S2000000x1 ![0] bcast_S2000000_S2000000x1_0
    (select (cmpi .slt a3 (broadcastInDim S2000000 ![] bcast_S_S2000000 (constantI S_ 32 0#32)))
      (addi a3 (broadcastInDim S2000000 ![] bcast_S_S2000000 (constantI S_ 32 64#32))) a3)

/-- max (in-degree, 1) of every node. -/
def kMx (a2 : Arr S2x2000000 .i32) : Arr S100000x1 .f32 :=
  maximumf
    (Host.scatterAdd scatter_S100000x1_S2000000x1_S2000000x1_1_0_0_1
      (broadcastInDim S100000x1 ![] bcast_S_S100000x1 (constant (F := Ideal) S_ .f32 0x00000000#32)) (kDst a2)
      (broadcastInDim S2000000x1 ![] bcast_S_S2000000x1 (constant (F := Ideal) S_ .f32 0x3F800000#32)))
    (broadcastInDim S100000x1 ![] bcast_S_S100000x1 (constant (F := Ideal) S_ .f32 0x3F800000#32))

/-- Its reciprocal, computed once. -/
def kInv (a2 : Arr S2x2000000 .i32) : Arr S100000x1 .f32 :=
  Host.divf (broadcastInDim S100000x1 ![] bcast_S_S100000x1 (constant (F := Ideal) S_ .f32 0x3F800000#32)) (kMx a2)

/-- The segment sum over destination nodes of x[source] · wt[relation]. -/
def kAgg (x : Arr S100000x64 .f32) (wt : Arr S64x64 .f32) (a2 : Arr S2x2000000 .i32) (a3 : Arr S2000000 .i32) :
    Arr S100000x64 .f32 :=
  Host.scatterAdd scatter_S100000x64_S2000000x1_S2000000x64_1_0_0_1
    (broadcastInDim S100000x64 ![] bcast_S_S100000x64 (constant (F := Ideal) S_ .f32 0x00000000#32)) (kDst a2)
    (mulf (Host.gather gather_S100000x64_S2000000x1_S2000000x64_1_0_n_n_0_1_164 x (kSrc a2))
      (Host.gather gather_S64x64_S2000000x1_S2000000x64_1_0_n_n_0_1_164 wt (kEt a3)))

/-- A bias vector as a one-row array. -/
def kRow64 (a : Arr S64 .f32) : Arr S1x64 .f32 := shapeCast _ a shapeCasts_S64_S1x64
def kRow16 (a : Arr S16 .f32) : Arr S1x16 .f32 := shapeCast _ a shapeCasts_S16_S1x16

/-! ## The whole result -/

/-- The node features after the first layer. -/
def kX1 (a0 : Arr S100000x128 .f32) (a1 : Arr S64x64 .f32) (a2 : Arr S2x2000000 .i32) (a3 : Arr S2000000 .i32)
    (a4 : Arr S2x2048 .i32) (a5 : Arr S2048x1 .f32) (a6 : Arr S128x64 .f32) (a7 : Arr S64x64 .f32) (a8 a9 : Arr S64 .f32) :
    Arr S100000x64 .f32 :=
  postAct (kAgg (mmP a0 a6) (kWT (kRelH a1 a4 a5) a7 a8) a2 a3) (kInv a2) (kRow64 a9)

/-- The class scores: the second layer's mean, bias and tanh, then the classifier. -/
def kOut (a0 : Arr S100000x128 .f32) (a1 : Arr S64x64 .f32) (a2 : Arr S2x2000000 .i32) (a3 : Arr S2000000 .i32)
    (a4 : Arr S2x2048 .i32) (a5 : Arr S2048x1 .f32) (a6 : Arr S128x64 .f32) (a7 : Arr S64x64 .f32) (a8 a9 a10 : Arr S64 .f32)
    (a11 : Arr S64x16 .f32) (a12 : Arr S16 .f32) : Arr S100000x16 .f32 :=
  classify
    (postAct (kAgg (kX1 a0 a1 a2 a3 a4 a5 a6 a7 a8 a9) (kWT (kRelH a1 a4 a5) a7 a8) a2 a3) (kInv a2) (kRow64 a10))
    a11 (kRow16 a12)

end Cert.KernelIdeal.Chain

end
-- ==== Proof.LibDotPlain.lean ====
/-
  A plain matrix product read index by index, for any extents: a contraction of an [M × K] by a [K × N] array whose
  dimension numbers contract the left operand's axis 1 with the right operand's axis 0, with no batch axis, is the
  matrix product `MatProd.mmP` — entry (r, s) the sum over j of l (r, j) · r (j, s) — both as the host's
  `dot_general` and as the matrix unit's product into a zero accumulator, at the exact-arithmetic instance.
-/
import Idealize.ShloMosaic.PureOps.Ideal
import Idealize.ShloMosaic.PureOps.Ideal.Laws
import Idealize.ShloMosaic.PureOps.Contract
import Idealize.ShloMosaic.Lib.ValueIdx
import proofs.«402911_j1039382085697_3_alg».proof.Proof.LibMatProd

noncomputable section

namespace Idealize.ShloMosaic.DotPlain

open Idealize.ShloMosaic Idealize.ShloMosaic.ValueIdx MatProd

variable {M K N : Nat} (d : DotDims ⟨2, ![M, K]⟩ ⟨2, ![K, N]⟩ ⟨2, ![M, N]⟩)

/-- The left operand's row is the result's row. -/
theorem lhs_axis0 (hlb : d.lhsBatch = []) (hln : d.lhsNonContracting = [0]) (j : (⟨2, ![M, N]⟩ : Shape).Idx) (k : d.contr.Idx) :
    (d.lhsIdx j k 0).val = (j 0).val := by
  have key : ∀ (p q : Nat) (hp : p < (⟨2, ![M, N]⟩ : Shape).rank) (hq : q < (⟨2, ![M, N]⟩ : Shape).rank), p = q →
      (j ⟨p, hp⟩).val = (j ⟨q, hq⟩).val := fun p q hp hq h => by subst h; rfl
  unfold DotDims.lhsIdx
  rw [dif_neg (by rw [hlb]; exact List.not_mem_nil), dif_pos (by rw [hln]; exact List.mem_singleton.mpr rfl)]
  simp only [Fin.val_cast]
  exact key _ _ _ _ (by simp [hlb, hln])

/-- The right operand's column is the result's column. -/
theorem rhs_axis1 (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have key : ∀ (p q : Nat) (hp : p < (⟨2, ![M, N]⟩ : Shape).rank) (hq : q < (⟨2, ![M, N]⟩ : Shape).rank), p = q →
      (j ⟨p, hp⟩).val = (j ⟨q, hq⟩).val := fun p q hp hq h => by subst h; rfl
  unfold DotDims.rhsIdx
  rw [dif_neg (by rw [hrb]; exact List.not_mem_nil), dif_pos (by rw [hrn]; exact List.mem_singleton.mpr rfl)]
  simp only [Fin.val_cast]
  exact key _ _ _ _ (by simp [hlb, hln, hrn])

/-- The contraction's sum, re-indexed by the contracted coordinate: the matrix product's entry. -/
theorem contr_sum (hlc : d.lhsContracting = [1]) (hrc : d.rhsContracting = [0]) (hln : d.lhsNonContracting = [0])
    (hrn : d.rhsNonContracting = [1]) (hlb : d.lhsBatch = []) (hrb : d.rhsBatch = [])
    (X : (⟨2, ![M, K]⟩ : Shape).Idx → EReal) (Y : (⟨2, ![K, N]⟩ : Shape).Idx → EReal) (j : (⟨2, ![M, N]⟩ : Shape).Idx) :
    ∑ k : d.contr.Idx, X (d.lhsIdx j k) * Y (d.rhsIdx j k) = mmP X Y j := by
  have hr : d.contr.rank = 1 := by rw [d.rank_contr, hlc]; rfl
  have hs : d.contr.size ⟨0, by omega⟩ = K := by
    rw [d.size_contr 0 (by rw [hlc]; exact Nat.one_pos)]
    simp [hlc]
  refine (Equiv.sum_comp (contrEquiv1 d K hr hs).symm _).symm.trans ?_
  unfold mmP
  refine Finset.sum_congr rfl fun kk _ => ?_
  have e1 : d.lhsIdx j ((contrEquiv1 d K hr hs).symm kk) = ix2 (j 0) kk := by
    funext a; apply Fin.ext
    match a with
    | ⟨0, _⟩ => exact lhs_axis0 d hlb hln j _
    | ⟨1, _⟩ => exact (d.lhsIdx_val_of_single hlc j _).trans (contrEquiv1_symm_val d K hr hs kk)
  have e2 : d.rhsIdx j ((contrEquiv1 d K hr hs).symm kk) = ix2 kk (j 1) := by
    funext a; apply Fin.ext
    match a with
    | ⟨0, _⟩ => exact (d.rhsIdx_val_of_single hrc j _).trans (contrEquiv1_symm_val d K hr hs kk)
    | ⟨1, _⟩ => exact rhs_axis1 d hlb hrb hln hrn j _
  exact congrArg₂ (· * ·) (congrArg X e1) (congrArg Y e2)

/-- The host's `dot_general` with these dimension numbers is the matrix product. -/
theorem dotGeneral_eq (hlc : d.lhsContracting = [1]) (hrc : d.rhsContracting = [0]) (hln : d.lhsNonContracting = [0])
    (hrn : d.rhsNonContracting = [1]) (hlb : d.lhsBatch = []) (hrb : d.rhsBatch = []) {φ₁ φ₂ : FTy}
    (prec : Option ContractPrecision) (sched : HostSchedule)
    (X : FVec Ideal ⟨2, ![M, K]⟩ φ₁) (Y : FVec Ideal ⟨2, ![K, N]⟩ φ₂) :
    FloatOps.dotGeneral d prec sched X Y = mmP X Y := by
  funext j
  rw [Ideal.dotGeneral_apply]
  exact contr_sum d hlc hrc hln hrn hlb hrb X Y j

/-- The matrix unit's product with these dimension numbers into a zero accumulator is the matrix product. -/
theorem matmul_zero_eq (hlc : d.lhsContracting = [1]) (hrc : d.rhsContracting = [0]) (hln : d.lhsNonContracting = [0])
    (hrn : d.rhsNonContracting = [1]) (hlb : d.lhsBatch = []) (hrb : d.rhsBatch = []) {φ₁ φ₂ : FTy}
    (prec : Option ContractPrecision) (X : FVec Ideal ⟨2, ![M, K]⟩ φ₁) (Y : FVec Ideal ⟨2, ![K, N]⟩ φ₂) :
    FloatOps.matmul d prec X Y (constant ⟨2, ![M, N]⟩ .f32 0x00000000#32) = mmP X Y := by
  funext j
  rw [Ideal.matmul_constant_zero_apply]
  exact contr_sum d hlc hrc hln hrn hlb hrb X Y j

end Idealize.ShloMosaic.DotPlain

end
-- ==== Proof.KRegion0.lean ====
/-
  The input projection, read off its tiled run: the 20 row blocks of 5000 nodes that the grid points write back tile
  the result array, and block t is the product of rows [5000 t, 5000 t + 5000) of the node features with the whole
  weight matrix — so the array the stage leaves is the matrix product of the two arrays it was entered with.
-/
import proofs.«402911_j1039382085697_3_alg».proof.Proof.Gen.KernelIdeal.Frame
import proofs.«402911_j1039382085697_3_alg».proof.Proof.KSpec
import proofs.«402911_j1039382085697_3_alg».proof.Proof.LibDotPlain
import Idealize.ShloMosaic.Lib.Pipeline.Value
import Idealize.ShloMosaic.Lib.ValueIdx

set_option maxRecDepth 16384

noncomputable section

namespace Cert.KernelIdeal.KRegion0

open Cert.KernelIdeal Cert.KernelIdeal.Gen
open Idealize.ShloMosaic Idealize.ShloMosaic.TcCoe Idealize.ShloMosaic.ValueIdx Idealize.SL.Sem
open Idealize.ShloMosaic.Pipeline (Dat Cfg Window)
open MatProd NodeStages

variable (V : (c : Dev nD) → (b : Ref sig .tc) → Buf (Elt Ideal) ((c : Thread nD τ).loc b))

theorem hz : (![0, 0] : Fin 2 → Nat) = fun _ => 0 := funext fun a => by fin_cases a <;> rfl

/-- One grid point's arithmetic: the block of node features times the weight matrix (a change of float format is the
    identity on extended reals, and the matrix unit's product into a zero accumulator is the plain matrix product). -/
theorem pay_eq (x0 : Vec Ideal S5000x128 .f32) (x1 : Vec Ideal S128x64 .f32) :
    k0_pay1 (F := Ideal) x0 x1 = mmP (M := 5000) (K := 128) (N := 64) x0 x1 := by
  unfold k0_pay1
  exact DotPlain.matmul_zero_eq dot_S5000x128_S128x64_S5000x64_1_0_0_1_n_n rfl rfl rfl rfl rfl rfl none _ _

/-- The printed index maps over the grid: the feature window and the result window move together down the rows, one
    block per grid point; the weight window stays. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What grid point t writes back is block t of the matrix product of the whole arrays. -/
theorem flushed_eq (c : Dev nD) (t : Fin cfg0.N) :
    (dat0 (F := Ideal) V c).flushed 2 t
      = ((cfg0.win 2).blk t).view.read (Elt Ideal) (mmP (M := 100000) (K := 128) (N := 64) (V c main_arg0) (V c main_arg6)) := by
  show (cfg0.win 2).cut (grid0.coords t) ((dat0 (F := Ideal) V c).after 2 t) = _
  rw [after0_2]
  unfold out0_2
  rw [View.canon_unit_zero hz]
  simp only [View.ld_unit_zero (S := S5000x128) hz, View.ld_unit_zero (S := S128x64) hz]
  rw [pay_eq]
  obtain ⟨e0, e1, e2, e3, e4, e5⟩ := idx_facts t
  funext j
  show mmP (M := 5000) (K := 128) (N := 64) (iblk0 V c 0 t) (iblk0 V c 1 t) j
      = mmP (M := 100000) (K := 128) (N := 64) (V c main_arg0) (V c main_arg6) (((cfg0.win 2).blk t).view.emb j)
  unfold mmP
  refine Finset.sum_congr rfl fun k _ => ?_
  -- the feature block's row r is row 5000 t + r of the array, all 128 columns; the weight block is the whole matrix
  have h0 : iblk0 V c 0 t (ix2 (j 0) k) = V c main_arg0 (ix2 ((((cfg0.win 2).blk t).view.emb j) 0) k) := by
    show V c main_arg0 (((cfg0.win 0).blk t).view.emb (ix2 (j 0) k)) = _
    refine congrArg _ ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : iblk0 V c 1 t (ix2 k (j 1)) = V c main_arg6 (ix2 k ((((cfg0.win 2).blk t).view.emb j) 1)) := by
    show V c main_arg6 (((cfg0.win 1).blk t).view.emb (ix2 k (j 1))) = _
    refine congrArg _ ?_
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  exact congrArg₂ (· * ·) h0 h1

/-- An index of the result array is in grid point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v0).slice (win0_2.rect t)).set ↔ _
  rw [View.set_slice_whole, Rect.mem_set_unit]
  exact Iff.rfl

/-- The 20 row blocks tile the result array: row i lies in the block of grid point i / 5000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  obtain ⟨e0, e1, e2, e3, e4, e5⟩ := idx_facts (⟨(i 0).val / 5000, by rw [hN]; omega⟩ : Fin cfg0.N)
  have e5' : win0_2.index (⟨(i 0).val / 5000, by rw [hN]; omega⟩ : Fin cfg0.N) (0 : Fin 2) = (i 0).val / 5000 := e5
  refine ⟨⟨(i 0).val / 5000, by rw [hN]; omega⟩, flush0_2 _, ?_⟩
  rw [mem_blk]
  intro a
  match a with
  | ⟨0, _⟩ =>
    show win0_2.index _ (0 : Fin 2) * 5000 ≤ (i 0).val ∧ (i 0).val < win0_2.index _ (0 : Fin 2) * 5000 + 5000
    omega
  | ⟨1, _⟩ =>
    show win0_2.index _ (1 : Fin 2) * 64 ≤ (i 1).val ∧ (i 1).val < win0_2.index _ (1 : Fin 2) * 64 + 64
    omega

/-- THE ARRAY the projection stage leaves: the matrix product of the two arrays it is entered with. -/
theorem final0 (c : Dev nD) : (dat0 (F := Ideal) V c).arrAt 2 cfg0.N
    = mmP (M := 100000) (K := 128) (N := 64) (V c main_arg0) (V c main_arg6) :=
  (dat0 (F := Ideal) V c).arrAt_eq_of_cover 2 _ (fun t _ => flushed_eq V c t) cover

end Cert.KernelIdeal.KRegion0

end
-- ==== Proof.KRegion1.lean ====
/-
  The first mean-and-activate stage, read off its tiled run: the 20 row blocks of 5000 nodes tile the result array, and
  at row i, column k block t holds tanh (agg (i, k) · inv (i, 0) + bias (0, k)) of the whole arrays — the aggregated
  messages and the reciprocal in-degrees move with the result block down the rows, the bias row stays.
-/
import proofs.«402911_j1039382085697_3_alg».proof.Proof.Gen.KernelIdeal.Frame
import proofs.«402911_j1039382085697_3_alg».proof.Proof.KSpec
import Idealize.ShloMosaic.Lib.Pipeline.Value
import Idealize.ShloMosaic.Lib.ValueIdx
import Idealize.ShloMosaic.Lib.ValueLayout

set_option maxRecDepth 16384

noncomputable section

namespace Cert.KernelIdeal.KRegion1

open Cert.KernelIdeal Cert.KernelIdeal.Gen
open Idealize.ShloMosaic Idealize.ShloMosaic.TcCoe Idealize.ShloMosaic.ValueIdx Idealize.SL.Sem
open Idealize.ShloMosaic.Pipeline (Dat Cfg Window)
open MatProd NodeStages

variable (V : (c : Dev nD) → (b : Ref sig .tc) → Buf (Elt Ideal) ((c : Thread nD τ).loc b))

theorem hz : (![0, 0] : Fin 2 → Nat) = fun _ => 0 := funext fun a => by fin_cases a <;> rfl

/-- A one-column array broadcast along the columns reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One grid point's arithmetic, entry by entry: the block of aggregated messages times the block's reciprocal
    in-degrees (one per row), plus the bias row, through tanh. -/
theorem pay_eq (x0 : Vec Ideal S5000x64 .f32) (x1 : Vec Ideal S5000x1 .f32) (x2 : Vec Ideal S1x64 .f32) :
    k1_pay1 (F := Ideal) x0 x1 x2 = postAct (N := 5000) (D := 64) x0 x1 x2 := by
  funext j
  obtain ⟨p, q, rfl⟩ : ∃ (p : Fin 5000) (q : Fin 64), j = ix2 p q := ⟨j 0, j 1, eq_ix2 j⟩
  unfold k1_pay1
  rw [postAct_apply]
  show Ideal.tanh (shapeCast S5000x64 x0 _ (ix2 p q) * broadcastTo S5000x64 (shapeCast S5000x1 x1 _) _ (ix2 p q)
      + broadcastTo S5000x64 (shapeCast S1x64 x2 _) _ (ix2 p q)) = _
  rw [shapeCast_self, shapeCast_self, shapeCast_self, broadcastTo_a1_ab_apply, broadcastTo_1b_ab_apply]

/-- The printed index maps over the grid: the aggregated messages, the reciprocal in-degrees and the result move
    together down the rows, one block per grid point; the bias row stays. -/
theorem idx_facts : ∀ t : Fin cfg1.N, win1_0.index t (0 : Fin 2) = win1_3.index t (0 : Fin 2)
    ∧ win1_0.index t (1 : Fin 2) = 0 ∧ win1_1.index t (0 : Fin 2) = win1_3.index t (0 : Fin 2)
    ∧ win1_1.index t (1 : Fin 2) = 0 ∧ win1_2.index t (0 : Fin 2) = 0 ∧ win1_2.index t (1 : Fin 2) = 0
    ∧ win1_3.index t (1 : Fin 2) = 0 ∧ win1_3.index t (0 : Fin 2) = t.val :=
  (by decide +kernel : ∀ t : Fin grid1.N, _)

/-- What grid point t writes back is block t of `postAct` of the whole arrays. -/
theorem flushed_eq (c : Dev nD) (t : Fin cfg1.N) :
    (dat1 (F := Ideal) V c).flushed 3 t
      = ((cfg1.win 3).blk t).view.read (Elt Ideal)
          (postAct (N := 100000) (D := 64) (V c main_v82) (V c main_v64) (V c main_v83)) := by
  show (cfg1.win 3).cut (grid1.coords t) ((dat1 (F := Ideal) V c).after 3 t) = _
  rw [after1_3]
  unfold out1_3
  rw [View.canon_unit_zero hz]
  simp only [View.ld_unit_zero (S := S5000x64) hz, View.ld_unit_zero (S := S5000x1) hz, View.ld_unit_zero (S := S1x64) hz]
  rw [pay_eq]
  obtain ⟨e0, e1, e2, e3, e4, e5, e6, e7⟩ := idx_facts t
  funext j
  show postAct (N := 5000) (D := 64) (iblk1 V c 0 t) (iblk1 V c 1 t) (iblk1 V c 2 t) j
      = postAct (N := 100000) (D := 64) (V c main_v82) (V c main_v64) (V c main_v83) (((cfg1.win 3).blk t).view.emb j)
  unfold postAct
  -- row r of each moving block is row 5000 t + r of its array; the bias block is the whole row
  have h0 : iblk1 V c 0 t j = V c main_v82 (((cfg1.win 3).blk t).view.emb j) := by
    show V c main_v82 (((cfg1.win 0).blk t).view.emb j) = _
    refine congrArg _ ?_
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * (j 1).val = win1_3.index t (1 : Fin 2) * 64 + 1 * (j 1).val; omega
  have h1 : iblk1 V c 1 t (ix2 (j 0) (0 : Fin 1)) = V c main_v64 (ix2 ((((cfg1.win 3).blk t).view.emb j) 0) (0 : Fin 1)) := by
    show V c main_v64 (((cfg1.win 1).blk t).view.emb (ix2 (j 0) (0 : Fin 1))) = _
    refine congrArg _ ?_
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 1 + 1 * 0 = 0; omega
  have h2 : iblk1 V c 2 t (ix2 (0 : Fin 1) (j 1)) = V c main_v83 (ix2 (0 : Fin 1) ((((cfg1.win 3).blk t).view.emb j) 1)) := by
    show V c main_v83 (((cfg1.win 2).blk t).view.emb (ix2 (0 : Fin 1) (j 1))) = _
    refine congrArg _ ?_
    funext a; apply Fin.ext
    match a with
    | ⟨0, _⟩ => show win1_2.index t (0 : Fin 2) * 1 + 1 * 0 = 0; omega
    | ⟨1, _⟩ => show win1_2.index t (1 : Fin 2) * 64 + 1 * (j 1).val = win1_3.index t (1 : Fin 2) * 64 + 1 * (j 1).val; omega
  rw [h0, h1, h2]

/-- An index of the result array is in grid point t's block iff each coordinate is in the block's range on its axis. -/
theorem mem_blk (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v84).slice (win1_3.rect t)).set ↔ _
  rw [View.set_slice_whole, Rect.mem_set_unit]
  exact Iff.rfl

/-- The 20 row blocks tile the result array: row i lies in the block of grid point i / 5000. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  obtain ⟨e0, e1, e2, e3, e4, e5, e6, e7⟩ := idx_facts (⟨(i 0).val / 5000, by rw [hN]; omega⟩ : Fin cfg1.N)
  have e7' : win1_3.index (⟨(i 0).val / 5000, by rw [hN]; omega⟩ : Fin cfg1.N) (0 : Fin 2) = (i 0).val / 5000 := e7
  refine ⟨⟨(i 0).val / 5000, by rw [hN]; omega⟩, flush1_3 _, ?_⟩
  rw [mem_blk]
  intro a
  match a with
  | ⟨0, _⟩ =>
    show win1_3.index _ (0 : Fin 2) * 5000 ≤ (i 0).val ∧ (i 0).val < win1_3.index _ (0 : Fin 2) * 5000 + 5000
    omega
  | ⟨1, _⟩ =>
    show win1_3.index _ (1 : Fin 2) * 64 ≤ (i 1).val ∧ (i 1).val < win1_3.index _ (1 : Fin 2) * 64 + 64
    omega

/-- THE ARRAY the stage leaves: `postAct` of the three arrays it is entered with. -/
theorem final1 (c : Dev nD) : (dat1 (F := Ideal) V c).arrAt 3 cfg1.N
    = postAct (N := 100000) (D := 64) (V c main_v82) (V c main_v64) (V c main_v83) :=
  (dat1 (F := Ideal) V c).arrAt_eq_of_cover 3 _ (fun t _ => flushed_eq V c t) cover

end Cert.KernelIdeal.KRegion1

end
-- ==== Proof.KRegion2.lean ====
/-
  The classifier stage, read off its tiled run: the 20 row blocks of 5000 nodes tile the result array, and at row i,
  class j block t holds (∑ k, tanh (agg (i, k) · inv (i, 0) + bias (0, k)) · w (k, j)) + fb (0, j) of the whole arrays —
  the aggregated messages and the reciprocal in-degrees move with the result block down the rows; the bias row, the
  classifier weights and the classifier bias stay.
-/
import proofs.«402911_j1039382085697_3_alg».proof.Proof.Gen.KernelIdeal.Frame
import proofs.«402911_j1039382085697_3_alg».proof.Proof.KSpec
import proofs.«402911_j1039382085697_3_alg».proof.Proof.KRegion1
import proofs.«402911_j1039382085697_3_alg».proof.Proof.LibDotPlain
import Idealize.ShloMosaic.Lib.Pipeline.Value
import Idealize.ShloMosaic.Lib.ValueIdx
import Idealize.ShloMosaic.Lib.ValueLayout

set_option maxRecDepth 16384

noncomputable section

namespace Cert.KernelIdeal.KRegion2

open Cert.KernelIdeal Cert.KernelIdeal.Gen
open Idealize.ShloMosaic Idealize.ShloMosaic.TcCoe Idealize.ShloMosaic.ValueIdx Idealize.SL.Sem
open Idealize.ShloMosaic.Pipeline (Dat Cfg Window)
open MatProd NodeStages

variable (V : (c : Dev nD) → (b : Ref sig .tc) → Buf (Elt Ideal) ((c : Thread nD τ).loc b))

theorem hz : (![0, 0] : Fin 2 → Nat) = fun _ => 0 := funext fun a => by fin_cases a <;> rfl

/-- The activations the classifier multiplies, as the body computes them from its first three loaded blocks. -/
def act (x0 : Vec Ideal S5000x64 .f32) (x1 : Vec Ideal S5000x1 .f32) (x2 : Vec Ideal S1x64 .f32) : FVec Ideal S5000x64 .f32 :=
  tanh (addf (mulf (shapeCast S5000x64 x0 shapeCasts_S5000x64_S5000x64)
      (broadcastTo S5000x64 (shapeCast S5000x1 x1 shapeCasts_S5000x1_S5000x1) broadcasts_S5000x1_S5000x64))
    (broadcastTo S5000x64 (shapeCast S1x64 x2 shapeCasts_S1x64_S1x64) broadcasts_S1x64_S5000x64))

/-- Entry by entry they are tanh (x0 (p, q) · x1 (p, 0) + x2 (0, q)). -/
theorem act_eq (x0 : Vec Ideal S5000x64 .f32) (x1 : Vec Ideal S5000x1 .f32) (x2 : Vec Ideal S1x64 .f32) :
    act x0 x1 x2 = postAct (N := 5000) (D := 64) x0 x1 x2 := by
  funext j
  obtain ⟨p, q, rfl⟩ : ∃ (p : Fin 5000) (q : Fin 64), j = ix2 p q := ⟨j 0, j 1, eq_ix2 j⟩
  rw [postAct_apply]
  show Ideal.tanh (shapeCast S5000x64 x0 _ (ix2 p q) * broadcastTo S5000x64 (shapeCast S5000x1 x1 _) _ (ix2 p q)
      + broadcastTo S5000x64 (shapeCast S1x64 x2 _) _ (ix2 p q)) = _
  rw [shapeCast_self, shapeCast_self, shapeCast_self, KRegion1.broadcastTo_a1_ab_apply, broadcastTo_1b_ab_apply]

/-- The body's arithmetic: the matrix unit's product of the activations with the classifier weights into a zero
    accumulator (both through a change of float format), plus the classifier bias row. -/
theorem pay_unfold (x0 : Vec Ideal S5000x64 .f32) (x1 : Vec Ideal S5000x1 .f32) (x2 : Vec Ideal S1x64 .f32)
    (x3 : Vec Ideal S64x16 .f32) (x4 : Vec Ideal S1x16 .f32) :
    k2_pay1 (F := Ideal) x0 x1 x2 x3 x4
      = addf (matmul dot_S5000x64_S64x16_S5000x16_1_0_0_1_n_n none (truncf .bf16 (act x0 x1 x2) bitsLt_bf16_f32)
            (truncf .bf16 x3 bitsLt_bf16_f32) (constant S5000x16 .f32 0x00000000#32))
          (broadcastTo S5000x16 (shapeCast S1x16 x4 shapeCasts_S1x16_S1x16) broadcasts_S1x16_S5000x16) := rfl

/-- One grid point's arithmetic is the classifier applied to the point's blocks. -/
theorem pay_eq (x0 : Vec Ideal S5000x64 .f32) (x1 : Vec Ideal S5000x1 .f32) (x2 : Vec Ideal S1x64 .f32)
    (x3 : Vec Ideal S64x16 .f32) (x4 : Vec Ideal S1x16 .f32) :
    k2_pay1 (F := Ideal) x0 x1 x2 x3 x4
      = classify (N := 5000) (D := 64) (C := 16) (postAct (N := 5000) (D := 64) x0 x1 x2) x3 x4 := by
  rw [pay_unfold]
  have hm : matmul dot_S5000x64_S64x16_S5000x16_1_0_0_1_n_n none (truncf .bf16 (act x0 x1 x2) bitsLt_bf16_f32)
      (truncf .bf16 x3 bitsLt_bf16_f32) (constant S5000x16 .f32 0x00000000#32)
      = mmP (M := 5000) (K := 64) (N := 16) (act x0 x1 x2) x3 :=
    DotPlain.matmul_zero_eq dot_S5000x64_S64x16_S5000x16_1_0_0_1_n_n rfl rfl rfl rfl rfl rfl none _ _
  rw [hm, act_eq]
  funext j
  obtain ⟨p, q, rfl⟩ : ∃ (p : Fin 5000) (q : Fin 16), j = ix2 p q := ⟨j 0, j 1, eq_ix2 j⟩
  show mmP (M := 5000) (K := 64) (N := 16) (postAct (N := 5000) (D := 64) x0 x1 x2) x3 (ix2 p q)
      + broadcastTo S5000x16 (shapeCast S1x16 x4 _) _ (ix2 p q)
    = mmP (M := 5000) (K := 64) (N := 16) (postAct (N := 5000) (D := 64) x0 x1 x2) x3 (ix2 p q) + x4 (ix2 (0 : Fin 1) q)
  rw [shapeCast_self, broadcastTo_1b_ab_apply]

/-- The printed index maps over the grid: the aggregated messages, the reciprocal in-degrees and the result move
    together down the rows, one block per grid point; the three other windows stay. -/
theorem idx_facts : ∀ t : Fin cfg2.N, win2_0.index t (0 : Fin 2) = win2_5.index t (0 : Fin 2)
    ∧ win2_0.index t (1 : Fin 2) = 0 ∧ win2_1.index t (0 : Fin 2) = win2_5.index t (0 : Fin 2)
    ∧ win2_1.index t (1 : Fin 2) = 0 ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) = t.val :=
  (by decide +kernel : ∀ t : Fin grid2.N, _)

/-- What grid point t writes back is block t of the classifier applied to the whole arrays. -/
theorem flushed_eq (c : Dev nD) (t : Fin cfg2.N) :
    (dat2 (F := Ideal) V c).flushed 5 t
      = ((cfg2.win 5).blk t).view.read (Elt Ideal)
          (classify (N := 100000) (D := 64) (C := 16)
            (postAct (N := 100000) (D := 64) (V c main_v102) (V c main_v64) (V c main_v103)) (V c main_arg11) (V c main_v104)) := by
  show (cfg2.win 5).cut (grid2.coords t) ((dat2 (F := Ideal) V c).after 5 t) = _
  rw [after2_5]
  unfold out2_5
  rw [View.canon_unit_zero hz]
  simp only [View.ld_unit_zero (S := S5000x64) hz, View.ld_unit_zero (S := S5000x1) hz, View.ld_unit_zero (S := S1x64) hz,
    View.ld_unit_zero (S := S64x16) hz, View.ld_unit_zero (S := S1x16) hz]
  rw [pay_eq]
  obtain ⟨e0, e1, e2, e3, e4, e5, e6, e7, e8, e9, e10, e11⟩ := idx_facts t
  funext j
  show classify (N := 5000) (D := 64) (C := 16)
        (postAct (N := 5000) (D := 64) (iblk2 V c 0 t) (iblk2 V c 1 t) (iblk2 V c 2 t)) (iblk2 V c 3 t) (iblk2 V c 4 t) j
      = classify (N := 100000) (D := 64) (C := 16)
        (postAct (N := 100000) (D := 64) (V c main_v102) (V c main_v64) (V c main_v103)) (V c main_arg11) (V c main_v104)
        (((cfg2.win 5).blk t).view.emb j)
  unfold classify mmP postAct
  -- row r of each moving block is row 5000 t + r of its array; the three other blocks are their whole arrays
  have h0 : ∀ k : Fin 64, iblk2 V c 0 t (ix2 (j 0) k) = V c main_v102 (ix2 ((((cfg2.win 5).blk t).view.emb j) 0) k) := fun k => by
    show V c main_v102 (((cfg2.win 0).blk t).view.emb (ix2 (j 0) k)) = _
    refine congrArg _ ?_
    funext a; apply Fin.ext
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 64 + 1 * k.val = k.val; omega
  have h1 : iblk2 V c 1 t (ix2 (j 0) (0 : Fin 1)) = V c main_v64 (ix2 ((((cfg2.win 5).blk t).view.emb j) 0) (0 : Fin 1)) := by
    show V c main_v64 (((cfg2.win 1).blk t).view.emb (ix2 (j 0) (0 : Fin 1))) = _
    refine congrArg _ ?_
    funext a; apply Fin.ext
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 1 + 1 * 0 = 0; omega
  have h2 : ∀ k : Fin 64, iblk2 V c 2 t (ix2 (0 : Fin 1) k) = V c main_v103 (ix2 (0 : Fin 1) k) := fun k => by
    show V c main_v103 (((cfg2.win 2).blk t).view.emb (ix2 (0 : Fin 1) k)) = _
    refine congrArg _ ?_
    funext a; apply Fin.ext
    match a with
    | ⟨0, _⟩ => show win2_2.index t (0 : Fin 2) * 1 + 1 * 0 = 0; omega
    | ⟨1, _⟩ => show win2_2.index t (1 : Fin 2) * 64 + 1 * k.val = k.val; omega
  have h3 : ∀ k : Fin 64, iblk2 V c 3 t (ix2 k (j 1)) = V c main_arg11 (ix2 k ((((cfg2.win 5).blk t).view.emb j) 1)) := fun k => by
    show V c main_arg11 (((cfg2.win 3).blk t).view.emb (ix2 k (j 1))) = _
    refine congrArg _ ?_
    funext a; apply Fin.ext
    match a with
    | ⟨0, _⟩ => show win2_3.index t (0 : Fin 2) * 64 + 1 * k.val = k.val; omega
    | ⟨1, _⟩ => show win2_3.index t (1 : Fin 2) * 16 + 1 * (j 1).val = win2_5.index t (1 : Fin 2) * 16 + 1 * (j 1).val; omega
  have h4 : iblk2 V c 4 t (ix2 (0 : Fin 1) (j 1)) = V c main_v104 (ix2 (0 : Fin 1) ((((cfg2.win 5).blk t).view.emb j) 1)) := by
    show V c main_v104 (((cfg2.win 4).blk t).view.emb (ix2 (0 : Fin 1) (j 1))) = _
    refine congrArg _ ?_
    funext a; apply Fin.ext
    match a with
    | ⟨0, _⟩ => show win2_4.index t (0 : Fin 2) * 1 + 1 * 0 = 0; omega
    | ⟨1, _⟩ => show win2_4.index t (1 : Fin 2) * 16 + 1 * (j 1).val = win2_5.index t (1 : Fin 2) * 16 + 1 * (j 1).val; omega
  -- term by term: the row of (r, k) is r and its column k, so the reciprocal in-degree and the bias read as stated
  refine congrArg₂ (· + ·) (Finset.sum_congr rfl fun k _ => ?_) h4
  exact congrArg₂ (· * ·) (congrArg Ideal.tanh (congrArg₂ (· + ·) (congrArg₂ (· * ·) (h0 k) h1) (h2 k))) (h3 k)

/-- An index of the result array is in grid point t's block iff each coordinate is in the block's range on its axis. -/
theorem mem_blk (t : Fin cfg2.N) (i : S100000x16.Idx) :
    i ∈ ((cfg2.win 5).blk t).view.set ↔ ∀ a : Fin 2, win2_5.index t a * S5000x16.size a ≤ (i a).val
      ∧ (i a).val < win2_5.index t a * S5000x16.size a + S5000x16.size a := by
  show i ∈ ((View.whole main_v105).slice (win2_5.rect t)).set ↔ _
  rw [View.set_slice_whole, Rect.mem_set_unit]
  exact Iff.rfl

/-- The 20 row blocks tile the result array: row i lies in the block of grid point i / 5000. -/
theorem cover (i : S100000x16.Idx) :
    ∃ t : Fin cfg2.N, (cfg2.win 5).flush t = true ∧ i ∈ ((cfg2.win 5).blk t).view.set := by
  have hi0 : (i 0).val < 100000 := (i 0).isLt
  have hi1 : (i 1).val < 16 := (i 1).isLt
  have hN : cfg2.N = 20 := N_2
  obtain ⟨e0, e1, e2, e3, e4, e5, e6, e7, e8, e9, e10, e11⟩ := idx_facts (⟨(i 0).val / 5000, by rw [hN]; omega⟩ : Fin cfg2.N)
  have e11' : win2_5.index (⟨(i 0).val / 5000, by rw [hN]; omega⟩ : Fin cfg2.N) (0 : Fin 2) = (i 0).val / 5000 := e11
  refine ⟨⟨(i 0).val / 5000, by rw [hN]; omega⟩, flush2_5 _, ?_⟩
  rw [mem_blk]
  intro a
  match a with
  | ⟨0, _⟩ =>
    show win2_5.index _ (0 : Fin 2) * 5000 ≤ (i 0).val ∧ (i 0).val < win2_5.index _ (0 : Fin 2) * 5000 + 5000
    omega
  | ⟨1, _⟩ =>
    show win2_5.index _ (1 : Fin 2) * 16 ≤ (i 1).val ∧ (i 1).val < win2_5.index _ (1 : Fin 2) * 16 + 16
    omega

/-- THE ARRAY the stage leaves: the classifier applied to `postAct` of the arrays it is entered with. -/
theorem final2 (c : Dev nD) : (dat2 (F := Ideal) V c).arrAt 5 cfg2.N
    = classify (N := 100000) (D := 64) (C := 16)
        (postAct (N := 100000) (D := 64) (V c main_v102) (V c main_v64) (V c main_v103)) (V c main_arg11) (V c main_v104) :=
  (dat2 (F := Ideal) V c).arrAt_eq_of_cover 5 _ (fun t _ => flushed_eq V c t) cover

end Cert.KernelIdeal.KRegion2

end
-- ==== Proof.KValue.lean ====
/-
  The result array of the tiled program as a function of the argument arrays.

  The run leaves the result buffer at the last boundary's contents.  Walking the boundaries back: the classifier stage
  leaves `classify (postAct agg₂ inv b₂) w fb` of the arrays it is entered with; those are the second aggregation, the
  reciprocal in-degrees and the reshaped biases, computed by host operations from what the first mean-and-activate stage
  left, `postAct agg₁ inv b₁`; its inputs in turn are host operations of the projection stage's product and of the
  arguments.  Each boundary's needed buffers are read one stretch at a time.
-/
import proofs.«402911_j1039382085697_3_alg».proof.Proof.Gen.KernelIdeal.Frame
import proofs.«402911_j1039382085697_3_alg».proof.Proof.KChain
import proofs.«402911_j1039382085697_3_alg».proof.Proof.KRegion0
import proofs.«402911_j1039382085697_3_alg».proof.Proof.KRegion1
import proofs.«402911_j1039382085697_3_alg».proof.Proof.KRegion2
import Idealize.ShloMosaic.Lib.StableHlo.Run

set_option maxRecDepth 16384

noncomputable section

namespace Cert.KernelIdeal.KValue

open Cert.KernelIdeal Cert.KernelIdeal.Gen Cert.KernelIdeal.Chain
open Idealize.ShloMosaic Idealize.ShloMosaic.TcCoe Idealize.SL.Sem Idealize.ShloMosaic.StableHlo
open MatProd NodeStages

variable (m : (ℓ : Loc nD τ sig) → Buf (Elt Ideal) ℓ) (ρ : Dev nD → PrngReg)

/-- No operation of the named stretch writes the buffer: decided operation by operation. -/
local macro "not_written" : tactic =>
  `(tactic| (refine List.forall_iff_forall_mem.mp ?_
             simp only [hostOps1, hostOps1_1, hostOps1_2, hostOps1_3, hostOps1_4, hostOps2, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

/-! ## After the projection stage -/

theorem W1_v0 (c : Dev nD) : W1 m ρ c (Proc.devRef .tc main_v0)
    = mmP (M := 100000) (K := 128) (N := 64) (m ((c : Thread nD τ).loc main_arg0)) (m ((c : Thread nD τ).loc main_arg6)) :=
  (W1_arr m ρ c 2).trans (KRegion0.final0 (V0 m ρ) c)

/-- A buffer that is no array of the projection stage keeps its launch contents across it. -/
theorem W1_keep (c : Dev nD) (b : Ref sig .tc) (hb : ∀ w, Pipeline.arrRef spec0 w ≠ b) :
    W1 m ρ c (Proc.devRef .tc b) = m ((c : Thread nD τ).loc b) :=
  (W1_of_ne m ρ c b hb).trans rfl

/-! ## The relation graph and the first aggregation: the five stretches between the first two stages -/

theorem W2_v25 (c : Dev nD) : W2 m ρ c (Proc.devRef .tc main_v25)
    = kRconv (m ((c : Thread nD τ).loc main_arg1)) (m ((c : Thread nD τ).loc main_arg4)) (m ((c : Thread nD τ).loc main_arg5)) := by
  show StableHlo.after hostOps1 (W1 m ρ c) (Proc.devRef .tc main_v25) = _
  generalize hV : W1 m ρ c = Vp
  after_results_simp
  subst hV
  rw [W1_keep m ρ c main_arg1 (by decide), W1_keep m ρ c main_arg4 (by decide), W1_keep m ρ c main_arg5 (by decide)]
  rfl

theorem W2_v2 (c : Dev nD) : W2 m ρ c (Proc.devRef .tc main_v2) = relSrcRow (m ((c : Thread nD τ).loc main_arg4)) := by
  show StableHlo.after hostOps1 (W1 m ρ c) (Proc.devRef .tc main_v2) = _
  generalize hV : W1 m ρ c = Vp
  after_results_simp
  subst hV
  rw [W1_keep m ρ c main_arg4 (by decide)]
  rfl

theorem W2_v4 (c : Dev nD) : W2 m ρ c (Proc.devRef .tc main_v4)
    = shapeCast _ (extractStridedSlice S1x2048 ![1, 0] (m ((c : Thread nD τ).loc main_arg4)) slices_S2x2048_S1x2048_1_0) shapeCasts_S1x2048_S2048 := by
  show StableHlo.after hostOps1 (W1 m ρ c) (Proc.devRef .tc main_v4) = _
  generalize hV : W1 m ρ c = Vp
  after_results_simp
  subst hV
  rw [W1_keep m ρ c main_arg4 (by decide)]
  rfl

/-- A buffer none of the five stretches has written yet keeps what the projection stage left. -/
theorem W2_keep (c : Dev nD) (b : Ref sig .tc)
    (h : ∀ op ∈ (hostOps1 : List (HloOp τ sig (Elt Ideal))), Proc.devRef .tc b ∉ op.writes) :
    W2 m ρ c (Proc.devRef .tc b) = W1 m ρ c (Proc.devRef .tc b) :=
  StableHlo.after_of_forall_not_mem _ _ h
theorem W3_keep (c : Dev nD) (b : Ref sig .tc)
    (h : ∀ op ∈ (hostOps1_1 : List (HloOp τ sig (Elt Ideal))), Proc.devRef .tc b ∉ op.writes) :
    W3 m ρ c (Proc.devRef .tc b) = W2 m ρ c (Proc.devRef .tc b) :=
  StableHlo.after_of_forall_not_mem _ _ h
theorem W4_keep (c : Dev nD) (b : Ref sig .tc)
    (h : ∀ op ∈ (hostOps1_2 : List (HloOp τ sig (Elt Ideal))), Proc.devRef .tc b ∉ op.writes) :
    W4 m ρ c (Proc.devRef .tc b) = W3 m ρ c (Proc.devRef .tc b) :=
  StableHlo.after_of_forall_not_mem _ _ h
theorem W5_keep (c : Dev nD) (b : Ref sig .tc)
    (h : ∀ op ∈ (hostOps1_3 : List (HloOp τ sig (Elt Ideal))), Proc.devRef .tc b ∉ op.writes) :
    W5 m ρ c (Proc.devRef .tc b) = W4 m ρ c (Proc.devRef .tc b) :=
  StableHlo.after_of_forall_not_mem _ _ h
theorem W6_keep (c : Dev nD) (b : Ref sig .tc)
    (h : ∀ op ∈ (hostOps1_4 : List (HloOp τ sig (Elt Ideal))), Proc.devRef .tc b ∉ op.writes) :
    W6 m ρ c (Proc.devRef .tc b) = W5 m ρ c (Proc.devRef .tc b) :=
  StableHlo.after_of_forall_not_mem _ _ h
theorem W8_keep (c : Dev nD) (b : Ref sig .tc)
    (h : ∀ op ∈ (hostOps2 : List (HloOp τ sig (Elt Ideal))), Proc.devRef .tc b ∉ op.writes) :
    W8 m ρ c (Proc.devRef .tc b) = W7 m ρ c (Proc.devRef .tc b) :=
  StableHlo.after_of_forall_not_mem _ _ h

theorem W3_v26 (c : Dev nD) : W3 m ρ c (Proc.devRef .tc main_v26)
    = kRelu (kRconv (m ((c : Thread nD τ).loc main_arg1)) (m ((c : Thread nD τ).loc main_arg4)) (m ((c : Thread nD τ).loc main_arg5))) := by
  show StableHlo.after hostOps1_1 (W2 m ρ c) (Proc.devRef .tc main_v26) = _
  generalize hV : W2 m ρ c = Vp
  after_results_simp
  subst hV
  rw [W2_v25]
  rfl

theorem W4_v47 (c : Dev nD) : W4 m ρ c (Proc.devRef .tc main_v47)
    = kRconv (kRelu (kRconv (m ((c : Thread nD τ).loc main_arg1)) (m ((c : Thread nD τ).loc main_arg4)) (m ((c : Thread nD τ).loc main_arg5))))
        (m ((c : Thread nD τ).loc main_arg4)) (m ((c : Thread nD τ).loc main_arg5)) := by
  show StableHlo.after hostOps1_2 (W3 m ρ c) (Proc.devRef .tc main_v47) = _
  generalize hV : W3 m ρ c = Vp
  after_results_simp
  subst hV
  rw [W3_v26,
    W3_keep m ρ c main_v2 (by not_written), W2_v2,
    W3_keep m ρ c main_v4 (by not_written), W2_v4,
    W3_keep m ρ c main_arg5 (by not_written), W2_keep m ρ c main_arg5 (by not_written), W1_keep m ρ c main_arg5 (by decide)]
  rfl

theorem W5_v48 (c : Dev nD) : W5 m ρ c (Proc.devRef .tc main_v48)
    = kRelH (m ((c : Thread nD τ).loc main_arg1)) (m ((c : Thread nD τ).loc main_arg4)) (m ((c : Thread nD τ).loc main_arg5)) := by
  show StableHlo.after hostOps1_3 (W4 m ρ c) (Proc.devRef .tc main_v48) = _
  generalize hV : W4 m ρ c = Vp
  after_results_simp
  subst hV
  rw [W4_v47]
  rfl

/-- An argument the projection stage does not stage, and no stretch up to here writes, is at its launch contents. -/
theorem W5_arg (c : Dev nD) (b : Ref sig .tc) (h0 : ∀ w, Pipeline.arrRef spec0 w ≠ b)
    (h1 : ∀ op ∈ (hostOps1 : List (HloOp τ sig (Elt Ideal))), Proc.devRef .tc b ∉ op.writes)
    (h2 : ∀ op ∈ (hostOps1_1 : List (HloOp τ sig (Elt Ideal))), Proc.devRef .tc b ∉ op.writes)
    (h3 : ∀ op ∈ (hostOps1_2 : List (HloOp τ sig (Elt Ideal))), Proc.devRef .tc b ∉ op.writes)
    (h4 : ∀ op ∈ (hostOps1_3 : List (HloOp τ sig (Elt Ideal))), Proc.devRef .tc b ∉ op.writes) :
    W5 m ρ c (Proc.devRef .tc b) = m ((c : Thread nD τ).loc b) :=
  (W5_keep m ρ c b h4).trans ((W4_keep m ρ c b h3).trans ((W3_keep m ρ c b h2).trans ((W2_keep m ρ c b h1).trans (W1_keep m ρ c b h0))))

theorem W5_v0 (c : Dev nD) : W5 m ρ c (Proc.devRef .tc main_v0)
    = mmP (M := 100000) (K := 128) (N := 64) (m ((c : Thread nD τ).loc main_arg0)) (m ((c : Thread nD τ).loc main_arg6)) :=
  (W5_keep m ρ c main_v0 (by not_written)).trans ((W4_keep m ρ c main_v0 (by not_written)).trans
    ((W3_keep m ρ c main_v0 (by not_written)).trans ((W2_keep m ρ c main_v0 (by not_written)).trans (W1_v0 m ρ c))))

theorem W5_arg2 (c : Dev nD) : W5 m ρ c (Proc.devRef .tc main_arg2) = m ((c : Thread nD τ).loc main_arg2) :=
  W5_arg m ρ c main_arg2 (by decide) (by not_written) (by not_written) (by not_written) (by not_written)
theorem W5_arg3 (c : Dev nD) : W5 m ρ c (Proc.devRef .tc main_arg3) = m ((c : Thread nD τ).loc main_arg3) :=
  W5_arg m ρ c main_arg3 (by decide) (by not_written) (by not_written) (by not_written) (by not_written)
theorem W5_arg7 (c : Dev nD) : W5 m ρ c (Proc.devRef .tc main_arg7) = m ((c : Thread nD τ).loc main_arg7) :=
  W5_arg m ρ c main_arg7 (by decide) (by not_written) (by not_written) (by not_written) (by not_written)
theorem W5_arg8 (c : Dev nD) : W5 m ρ c (Proc.devRef .tc main_arg8) = m ((c : Thread nD τ).loc main_arg8) :=
  W5_arg m ρ c main_arg8 (by decide) (by not_written) (by not_written) (by not_written) (by not_written)
theorem W5_arg9 (c : Dev nD) : W5 m ρ c (Proc.devRef .tc main_arg9) = m ((c : Thread nD τ).loc main_arg9) :=
  W5_arg m ρ c main_arg9 (by decide) (by not_written) (by not_written) (by not_written) (by not_written)
theorem W5_arg10 (c : Dev nD) : W5 m ρ c (Proc.devRef .tc main_arg10) = m ((c : Thread nD τ).loc main_arg10) :=
  W5_arg m ρ c main_arg10 (by decide) (by not_written) (by not_written) (by not_written) (by not_written)
theorem W5_arg11 (c : Dev nD) : W5 m ρ c (Proc.devRef .tc main_arg11) = m ((c : Thread nD τ).loc main_arg11) :=
  W5_arg m ρ c main_arg11 (by decide) (by not_written) (by not_written) (by not_written) (by not_written)
theorem W5_arg12 (c : Dev nD) : W5 m ρ c (Proc.devRef .tc main_arg12) = m ((c : Thread nD τ).loc main_arg12) :=
  W5_arg m ρ c main_arg12 (by decide) (by not_written) (by not_written) (by not_written) (by not_written)

/-- The weight table, as the mean-and-activate stage's region finds it. -/
theorem W6_v52 (c : Dev nD) : W6 m ρ c (Proc.devRef .tc main_v52)
    = kWT (kRelH (m ((c : Thread nD τ).loc main_arg1)) (m ((c : Thread nD τ).loc main_arg4)) (m ((c : Thread nD τ).loc main_arg5)))
        (m ((c : Thread nD τ).loc main_arg7)) (m ((c : Thread nD τ).loc main_arg8)) := by
  show StableHlo.after hostOps1_4 (W5 m ρ c) (Proc.devRef .tc main_v52) = _
  generalize hV : W5 m ρ c = Vp
  after_results_simp
  subst hV
  rw [W5_v48, W5_arg7, W5_arg8]
  rfl

theorem W6_v54 (c : Dev nD) : W6 m ρ c (Proc.devRef .tc main_v54) = srcRow (m ((c : Thread nD τ).loc main_arg2)) := by
  show StableHlo.after hostOps1_4 (W5 m ρ c) (Proc.devRef .tc main_v54) = _
  generalize hV : W5 m ρ c = Vp
  after_results_simp
  subst hV
  rw [W5_arg2]
  rfl

theorem W6_v56 (c : Dev nD) : W6 m ρ c (Proc.devRef .tc main_v56)
    = shapeCast _ (extractStridedSlice S1x2000000 ![1, 0] (m ((c : Thread nD τ).loc main_arg2)) slices_S2x2000000_S1x2000000_1_0) shapeCasts_S1x2000000_S2000000 := by
  show StableHlo.after hostOps1_4 (W5 m ρ c) (Proc.devRef .tc main_v56) = _
  generalize hV : W5 m ρ c = Vp
  after_results_simp
  subst hV
  rw [W5_arg2]
  rfl

theorem W6_v64 (c : Dev nD) : W6 m ρ c (Proc.devRef .tc main_v64) = kInv (m ((c : Thread nD τ).loc main_arg2)) := by
  show StableHlo.after hostOps1_4 (W5 m ρ c) (Proc.devRef .tc main_v64) = _
  generalize hV : W5 m ρ c = Vp
  after_results_simp
  subst hV
  rw [W5_arg2]
  rfl

theorem W6_v83 (c : Dev nD) : W6 m ρ c (Proc.devRef .tc main_v83) = kRow64 (m ((c : Thread nD τ).loc main_arg9)) := by
  show StableHlo.after hostOps1_4 (W5 m ρ c) (Proc.devRef .tc main_v83) = _
  generalize hV : W5 m ρ c = Vp
  after_results_simp
  subst hV
  rw [W5_arg9]
  rfl

theorem W6_v82 (c : Dev nD) : W6 m ρ c (Proc.devRef .tc main_v82)
    = kAgg (mmP (M := 100000) (K := 128) (N := 64) (m ((c : Thread nD τ).loc main_arg0)) (m ((c : Thread nD τ).loc main_arg6)))
        (kWT (kRelH (m ((c : Thread nD τ).loc main_arg1)) (m ((c : Thread nD τ).loc main_arg4)) (m ((c : Thread nD τ).loc main_arg5)))
          (m ((c : Thread nD τ).loc main_arg7)) (m ((c : Thread nD τ).loc main_arg8)))
        (m ((c : Thread nD τ).loc main_arg2)) (m ((c : Thread nD τ).loc main_arg3)) := by
  show StableHlo.after hostOps1_4 (W5 m ρ c) (Proc.devRef .tc main_v82) = _
  generalize hV : W5 m ρ c = Vp
  after_results_simp
  subst hV
  rw [W5_v48, W5_arg7, W5_arg8, W5_arg2, W5_arg3, W5_v0]
  rfl

/-! ## After the first mean-and-activate stage -/

theorem W7_v84 (c : Dev nD) : W7 m ρ c (Proc.devRef .tc main_v84)
    = kX1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  refine (W7_arr m ρ c 3).trans ((KRegion1.final1 (V6 m ρ) c).trans ?_)
  show postAct (W6 m ρ c (Proc.devRef .tc main_v82)) (W6 m ρ c (Proc.devRef .tc main_v64)) (W6 m ρ c (Proc.devRef .tc main_v83)) = _
  rw [W6_v82, W6_v64, W6_v83]
  rfl

/-- A buffer that is no array of the mean-and-activate stage keeps its contents across it. -/
theorem W7_keep (c : Dev nD) (b : Ref sig .tc) (hb : ∀ w, Pipeline.arrRef spec1 w ≠ b) :
    W7 m ρ c (Proc.devRef .tc b) = W6 m ρ c (Proc.devRef .tc b) := W7_of_ne m ρ c b hb

/-- The reciprocal in-degrees are an input array of the stage: it leaves them as it found them. -/
theorem W7_v64 (c : Dev nD) : W7 m ρ c (Proc.devRef .tc main_v64) = kInv (m ((c : Thread nD τ).loc main_arg2)) :=
  (W7_arr m ρ c 1).trans (((dat1 (V6 m ρ) c).arrAt_in 1 rfl _).trans ((A_eq1 (V6 m ρ) c 1).trans (W6_v64 m ρ c)))

/-! ## The second aggregation, and the classifier stage -/

theorem W8_v102 (c : Dev nD) : W8 m ρ c (Proc.devRef .tc main_v102)
    = kAgg (kX1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)))
        (kWT (kRelH (m ((c : Thread nD τ).loc main_arg1)) (m ((c : Thread nD τ).loc main_arg4)) (m ((c : Thread nD τ).loc main_arg5)))
          (m ((c : Thread nD τ).loc main_arg7)) (m ((c : Thread nD τ).loc main_arg8)))
        (m ((c : Thread nD τ).loc main_arg2)) (m ((c : Thread nD τ).loc main_arg3)) := by
  show StableHlo.after hostOps2 (W7 m ρ c) (Proc.devRef .tc main_v102) = _
  generalize hV : W7 m ρ c = Vp
  after_results_simp
  subst hV
  rw [W7_v84,
    W7_keep m ρ c main_v52 (by decide), W6_v52,
    W7_keep m ρ c main_v54 (by decide), W6_v54,
    W7_keep m ρ c main_v56 (by decide), W6_v56,
    W7_keep m ρ c main_arg3 (by decide), W6_keep m ρ c main_arg3 (by not_written), W5_arg3]
  rfl

theorem W8_v64 (c : Dev nD) : W8 m ρ c (Proc.devRef .tc main_v64) = kInv (m ((c : Thread nD τ).loc main_arg2)) :=
  (W8_keep m ρ c main_v64 (by not_written)).trans (W7_v64 m ρ c)

theorem W8_v103 (c : Dev nD) : W8 m ρ c (Proc.devRef .tc main_v103) = kRow64 (m ((c : Thread nD τ).loc main_arg10)) := by
  show StableHlo.after hostOps2 (W7 m ρ c) (Proc.devRef .tc main_v103) = _
  generalize hV : W7 m ρ c = Vp
  after_results_simp
  subst hV
  rw [W7_keep m ρ c main_arg10 (by decide), W6_keep m ρ c main_arg10 (by not_written), W5_arg10]
  rfl

theorem W8_v104 (c : Dev nD) : W8 m ρ c (Proc.devRef .tc main_v104) = kRow16 (m ((c : Thread nD τ).loc main_arg12)) := by
  show StableHlo.after hostOps2 (W7 m ρ c) (Proc.devRef .tc main_v104) = _
  generalize hV : W7 m ρ c = Vp
  after_results_simp
  subst hV
  rw [W7_keep m ρ c main_arg12 (by decide), W6_keep m ρ c main_arg12 (by not_written), W5_arg12]
  rfl

theorem W8_arg11 (c : Dev nD) : W8 m ρ c (Proc.devRef .tc main_arg11) = m ((c : Thread nD τ).loc main_arg11) :=
  (W8_keep m ρ c main_arg11 (by not_written)).trans ((W7_keep m ρ c main_arg11 (by decide)).trans
    ((W6_keep m ρ c main_arg11 (by not_written)).trans (W5_arg11 m ρ c)))

/-- THE RESULT ARRAY at the last boundary is `kOut` of the argument arrays. -/
theorem W9_result (c : Dev nD) : W9 m ρ c (Proc.devRef .tc main_v105)
    = kOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) := by
  refine (W9_arr m ρ c 5).trans ((KRegion2.final2 (V8 m ρ) c).trans ?_)
  show classify (postAct (W8 m ρ c (Proc.devRef .tc main_v102)) (W8 m ρ c (Proc.devRef .tc main_v64)) (W8 m ρ c (Proc.devRef .tc main_v103)))
      (W8 m ρ c (Proc.devRef .tc main_arg11)) (W8 m ρ c (Proc.devRef .tc main_v104)) = _
  rw [W8_v102, W8_v64, W8_v103, W8_arg11, W8_v104]
  rfl

end Cert.KernelIdeal.KValue

end
-- ==== Proof.LibRowGatherScatter.lean ====
/-
  Three host indexing operations read at an index, for any extents: the gather of whole rows of an
  [N × C] table named by an [E × 1] column of row numbers (jnp's table[idx, :]), and the accumulating
  float scatters that add E updates (rows of an [E × C] array, or the entries of an [E] vector) into the
  rows (entries) those row numbers name (jnp's .at[idx].add, segment_sum), at the exact-arithmetic instance
  where the accumulation is a plain sum.
-/
import Idealize.ShloMosaic.PureOps.Ideal
import Idealize.ShloMosaic.PureOps.Contract
import Idealize.ShloMosaic.Lib.ValueIdx

noncomputable section

namespace Idealize.ShloMosaic.RowOps

open Idealize.ShloMosaic Idealize.ShloMosaic.ValueIdx

/-- Row e of the gathered array is the table's row at e's row number, read signed and clamped into the table. -/
theorem gather_rows_apply {α : Type} {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (x : (⟨2, ![N, C]⟩ : Shape).Idx → α) (idx : IVec ⟨2, ![E, 1]⟩ w) (e : Fin E) (k : Fin C) (hN : 0 < N) :
    Host.gather d x idx (ix2 e k) = x (ix2 (⟨min (idx (ix2 e (0 : Fin 1))).toInt.toNat (N - 1), by omega⟩ : Fin N) k) := by
  unfold Host.gather
  congr 1
  funext a
  -- the result's one batch axis is axis 0 (axis 1 is its offset axis); no operand axis is a batching axis
  have hbd : d.batchDims = [0] := by
    show (⟨2, ![E, C]⟩ : Shape).kept d.offsetDims = [0]
    rw [hoff]; rfl
  have hob0 : ∀ a : Fin 2, a ∉ d.operandBatchingDims := fun a => by rw [hob]; exact List.not_mem_nil
  -- every entry of a one-element list of axes is that axis, whatever position it is read at
  have hall0 : ∀ X ∈ d.batchDims, X = 0 := fun X hX => by rw [hbd] at hX; exact List.mem_singleton.1 hX
  have hall1 : ∀ X ∈ d.offsetDims, X = 1 := fun X hX => by rw [hoff] at hX; exact List.mem_singleton.1 hX
  have coord0 : ∀ X : Fin 2, X = 0 → ((ix2 e k) X).val = e.val := fun X h => by subst h; rfl
  have coord1 : ∀ X : Fin 2, X = 1 → ((ix2 e k) X).val = k.val := fun X h => by subst h; rfl
  match a with
  | ⟨0, _⟩ =>
    -- operand axis 0: collapsed (slice size 1, no offset coordinate) and start-indexed: the clamped row number
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e k) idx 0 + d.batchCoord (ix2 e k) 0 + d.offCoord (ix2 e k) 0 = min (idx (ix2 e 0)).toInt.toNat (N - 1)
    rw [GatherDims.batchCoord_eq_zero _ _ _ (hob0 0), GatherDims.offCoord_eq_zero _ _ _ hk]
    simp only [Nat.add_zero]
    unfold GatherDims.start
    rw [dif_pos hm]
    show min (idx _).toInt.toNat (N - d.sliceSizes 0) = _
    rw [hsl]
    congr 3
    congr 1
    -- the start index is read at (e, 0): e from the result's batch coordinate, 0 the one component of the index vector
    funext b
    match b with
    | ⟨0, _⟩ =>
      unfold GatherDims.siIdx
      rw [dif_neg (by rw [hivd]; simp)]
      unfold GatherDims.siCoord
      apply Fin.ext
      simp only [Fin.val_cast]
      exact coord0 _ (hall0 _ (List.getElem_mem _))
    | ⟨1, _⟩ =>
      unfold GatherDims.siIdx
      rw [dif_pos (by rw [hivd])]
      apply Fin.ext
      show List.idxOf (0 : Fin 2) d.startIndexMap = 0
      rw [hsim]; simp
  | ⟨1, _⟩ =>
    -- operand axis 1: not start-indexed (start 0), kept whole: the offset coordinate is the result's coordinate on axis 1
    apply Fin.ext
    have hk : (1 : Fin 2) ∈ d.sKept := by rw [GatherDims.mem_sKept, hcoll]; exact ⟨by simp, hob0 1⟩
    have hm : (1 : Fin 2) ∉ d.startIndexMap := by rw [hsim]; simp
    show d.start (ix2 e k) idx 1 + d.batchCoord (ix2 e k) 1 + d.offCoord (ix2 e k) 1 = k.val
    rw [GatherDims.batchCoord_eq_zero _ _ _ (hob0 1)]
    unfold GatherDims.start GatherDims.offCoord
    rw [dif_neg hm, dif_pos hk]
    simp only [Nat.add_zero, Nat.zero_add]
    exact coord1 _ (hall1 _ (List.getElem_mem _))

/-- Where one update lands: update (e, k') lands on (i, k) exactly when e's row number, read signed, is i and k' is k.
    On axis 0 (inserted: no window coordinate) the landing coordinate is the row number itself, not clamped, so a
    negative one or one past the table lands nowhere; on axis 1 (start 0) it is the update's own coordinate k', always
    inside the row. -/
private theorem resultIdx_rows_iff {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1) (idx : IVec ⟨2, ![E, 1]⟩ w) (e : Fin E) (k' : Fin C) (i : Fin N) (k : Fin C) :
    d.resultIdx? (ix2 e k') idx = some (ix2 i k) ↔ (idx (ix2 e (0 : Fin 1))).toInt = (i.val : Int) ∧ k' = k := by
  -- the updates' one scatter axis is axis 0 (axis 1 is their window axis); the operand's one window axis is axis 1
  have hus : d.uScatter = [0] := by
    show (⟨2, ![E, C]⟩ : Shape).kept d.updateWindowDims = [0]
    rw [huw]; rfl
  have hsk : d.sKept = [1] := by
    show (⟨2, ![N, C]⟩ : Shape).kept d.insertedWindowDims = [1]
    rw [hiw]; rfl
  have hall0 : ∀ X ∈ d.uScatter, X = 0 := fun X hX => by rw [hus] at hX; exact List.mem_singleton.1 hX
  have hall1 : ∀ X ∈ d.updateWindowDims, X = 1 := fun X hX => by rw [huw] at hX; exact List.mem_singleton.1 hX
  have coord0 : ∀ X : Fin 2, X = 0 → ((ix2 e k') X).val = e.val := fun X h => by subst h; rfl
  have coord1 : ∀ X : Fin 2, X = 1 → ((ix2 e k') X).val = k'.val := fun X h => by subst h; rfl
  -- the four ingredients of the landing index: start and window coordinate on each operand axis
  have hst0 : d.start (ix2 e k') idx 0 = (idx (ix2 e (0 : Fin 1))).toInt := by
    unfold ScatterDims.start
    rw [dif_pos (by rw [hsd]; exact List.mem_singleton.mpr rfl)]
    congr 2
    funext b
    match b with
    | ⟨0, _⟩ =>
      unfold ScatterDims.siIdx
      rw [dif_neg (by rw [hivd]; simp)]
      unfold ScatterDims.siCoord
      apply Fin.ext
      simp only [Fin.val_cast]
      exact coord0 _ (hall0 _ (List.getElem_mem _))
    | ⟨1, _⟩ =>
      unfold ScatterDims.siIdx
      rw [dif_pos (by rw [hivd])]
      apply Fin.ext
      show List.idxOf (0 : Fin 2) d.scatterDimsToOperandDims = 0
      rw [hsd]; simp
  have hw0 : d.window (ix2 e k') 0 = 0 := by
    unfold ScatterDims.window; rw [dif_neg (by rw [hsk]; simp)]
  have hst1 : d.start (ix2 e k') idx 1 = 0 := by
    unfold ScatterDims.start; rw [dif_neg (by rw [hsd]; simp)]
  have hw1 : d.window (ix2 e k') 1 = k'.val := by
    unfold ScatterDims.window; rw [dif_pos (by rw [hsk]; simp)]
    exact coord1 _ (hall1 _ (List.getElem_mem _))
  unfold ScatterDims.resultIdx?
  split
  · -- the landing index is inside the operand: compare it with (i, k) coordinate by coordinate
    rename_i h
    rw [Option.some.injEq]
    constructor
    · intro hf
      have h0 : (d.start (ix2 e k') idx 0 + d.window (ix2 e k') 0).toNat = i.val := congrArg (fun f => (f 0).val) hf
      have h1 : (d.start (ix2 e k') idx 1 + d.window (ix2 e k') 1).toNat = k.val := congrArg (fun f => (f 1).val) hf
      have hh := (h 0).1
      rw [hst0, hw0] at h0 hh
      rw [hst1, hw1] at h1
      exact ⟨by omega, Fin.ext (by omega)⟩
    · rintro ⟨hi, rfl⟩
      funext a
      match a with
      | ⟨0, _⟩ =>
        apply Fin.ext
        show (d.start (ix2 e k') idx 0 + d.window (ix2 e k') 0).toNat = i.val
        rw [hst0, hw0, hi]; omega
      | ⟨1, _⟩ =>
        apply Fin.ext
        show (d.start (ix2 e k') idx 1 + d.window (ix2 e k') 1).toNat = k'.val
        rw [hst1, hw1]; omega
  · -- the landing index leaves the operand: then the row number is no row of the table, i least of all
    rename_i h
    constructor
    · intro hf; exact absurd hf (by simp)
    · rintro ⟨hi, rfl⟩
      exfalso; apply h
      intro a
      match a with
      | ⟨0, _⟩ =>
        show 0 ≤ d.start (ix2 e k') idx 0 + d.window (ix2 e k') 0 ∧ d.start (ix2 e k') idx 0 + d.window (ix2 e k') 0 < (N : Int)
        rw [hst0, hw0, hi]; have := i.isLt; omega
      | ⟨1, _⟩ =>
        show 0 ≤ d.start (ix2 e k') idx 1 + d.window (ix2 e k') 1 ∧ d.start (ix2 e k') idx 1 + d.window (ix2 e k') 1 < (C : Int)
        rw [hst1, hw1]; have := k'.isLt; omega

/-- Entry (i, k) after the scatter: what was there plus the updates' entries (e, k) over the e whose row number is i. -/
theorem scatterAdd_rows_apply {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (i : Fin N) (k : Fin C) :
    Ideal.hostScatterAdd d x idx upd (ix2 i k)
      = x (ix2 i k) + ∑ e : Fin E, if (idx (ix2 e (0 : Fin 1))).toInt = (i.val : Int) then upd (ix2 e k) else 0 := by
  unfold Ideal.hostScatterAdd
  congr 1
  -- the sum over the updates that land on (i, k), as a double sum over (e, k') of the updates guarded by "lands on (i, k)"
  rw [Finset.sum_filter, sum_idx2]
  refine Finset.sum_congr rfl fun e _ => ?_
  by_cases he : (idx (ix2 e (0 : Fin 1))).toInt = (i.val : Int)
  · -- row e is aimed at row i: of its C entries exactly the one in column k lands on (i, k)
    rw [if_pos he, Finset.sum_eq_single k]
    · rw [if_pos ((resultIdx_rows_iff d huw hiw hsd hivd idx e k i k).2 ⟨he, rfl⟩)]
    · intro k' _ hk'
      rw [if_neg fun h => hk' ((resultIdx_rows_iff d huw hiw hsd hivd idx e k' i k).1 h).2]
    · intro h; exact absurd (Finset.mem_univ k) h
  · -- row e is aimed elsewhere (or nowhere): none of its entries lands on (i, k)
    rw [if_neg he]
    refine Finset.sum_eq_zero fun k' _ => ?_
    rw [if_neg fun h => he ((resultIdx_rows_iff d huw hiw hsd hivd idx e k' i k).1 h).1]

/-- A sum over a rank-1 index set is the sum over its one coordinate. -/
private theorem sum_idx1 {M : Type*} [AddCommMonoid M] {n : Nat} (f : (⟨1, ![n]⟩ : Shape).Idx → M) :
    ∑ j, f j = ∑ a : Fin n, f (ix1 a) := by
  let φ : (⟨1, ![n]⟩ : Shape).Idx ≃ Fin n :=
    { toFun := fun j => j 0, invFun := fun a => ix1 a, left_inv := fun j => (eq_ix1 j).symm, right_inv := fun _ => rfl }
  rw [← Equiv.sum_comp φ.symm f]
  rfl

/-- Where one update of a vector lands: update e lands on entry i exactly when e's row number, read signed, is i (the
    operand's one axis is inserted: the landing coordinate is the row number itself, not clamped). -/
private theorem resultIdx_vec_iff {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1) (idx : IVec ⟨2, ![E, 1]⟩ w) (e : Fin E) (i : Fin N) :
    d.resultIdx? (ix1 e) idx = some (ix1 i) ↔ (idx (ix2 e (0 : Fin 1))).toInt = (i.val : Int) := by
  -- the operand has no window axis
  have hsk : d.sKept = [] := by
    show (⟨1, ![N]⟩ : Shape).kept d.insertedWindowDims = []
    rw [hiw]; rfl
  have coord0 : ∀ X : Fin 1, ((ix1 e) X).val = e.val := fun X => by
    obtain rfl : X = 0 := Subsingleton.elim _ _
    rfl
  have hst0 : d.start (ix1 e) idx 0 = (idx (ix2 e (0 : Fin 1))).toInt := by
    unfold ScatterDims.start
    rw [dif_pos (by rw [hsd]; exact List.mem_singleton.mpr rfl)]
    congr 2
    funext b
    match b with
    | ⟨0, _⟩ =>
      unfold ScatterDims.siIdx
      rw [dif_neg (by rw [hivd]; simp)]
      unfold ScatterDims.siCoord
      apply Fin.ext
      simp only [Fin.val_cast]
      exact coord0 _
    | ⟨1, _⟩ =>
      unfold ScatterDims.siIdx
      rw [dif_pos (by rw [hivd])]
      apply Fin.ext
      show List.idxOf (0 : Fin 1) d.scatterDimsToOperandDims = 0
      rw [hsd]; simp
  have hw0 : d.window (ix1 e) 0 = 0 := by
    unfold ScatterDims.window; rw [dif_neg (by rw [hsk]; simp)]
  have hax : ∀ a : Fin 1, a = 0 := fun a => Subsingleton.elim _ _
  unfold ScatterDims.resultIdx?
  split
  · rename_i h
    rw [Option.some.injEq]
    constructor
    · intro hf
      have h0 : (d.start (ix1 e) idx 0 + d.window (ix1 e) 0).toNat = i.val := congrArg (fun f => (f 0).val) hf
      have hh := (h 0).1
      rw [hst0, hw0] at h0 hh
      omega
    · intro hi
      funext a
      obtain rfl := hax a
      apply Fin.ext
      show (d.start (ix1 e) idx 0 + d.window (ix1 e) 0).toNat = i.val
      rw [hst0, hw0, hi]; omega
  · rename_i h
    constructor
    · intro hf; exact absurd hf (by simp)
    · intro hi
      exfalso; apply h
      intro a
      obtain rfl := hax a
      show 0 ≤ d.start (ix1 e) idx 0 + d.window (ix1 e) 0 ∧ d.start (ix1 e) idx 0 + d.window (ix1 e) 0 < (N : Int)
      rw [hst0, hw0, hi]; have := i.isLt; omega

/-- Entry i after the scatter of a vector: what was there plus the updates over the e whose row number is i. -/
theorem scatterAdd_vec_apply {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![E, 1]⟩ w) (upd : (⟨1, ![E]⟩ : Shape).Idx → EReal) (i : Fin N) :
    Ideal.hostScatterAdd d x idx upd (ix1 i)
      = x (ix1 i) + ∑ e : Fin E, if (idx (ix2 e (0 : Fin 1))).toInt = (i.val : Int) then upd (ix1 e) else 0 := by
  unfold Ideal.hostScatterAdd
  congr 1
  rw [Finset.sum_filter, sum_idx1]
  refine Finset.sum_congr rfl fun e _ => ?_
  by_cases he : (idx (ix2 e (0 : Fin 1))).toInt = (i.val : Int)
  · rw [if_pos he, if_pos ((resultIdx_vec_iff d huw hiw hsd hivd idx e i).2 he)]
  · rw [if_neg he, if_neg fun h => he ((resultIdx_vec_iff d huw hiw hsd hivd idx e i).1 h)]

end Idealize.ShloMosaic.RowOps

end
-- ==== Proof.Bridge.lean ====
/-
  The tiled program's result and the reference's are one function of the argument arrays, at exact arithmetic.

  Three places differ, and everywhere else the two apply the same operations to equal operands.
  * A matrix product read index by index: entry (r, s) of each contraction is the sum over j of l (r, j) · r (j, s).
  * Gathering rows commutes with a row-wise product plus a bias row: row e of the table relH · W + b taken at e's
    relation r is (∑ k, relH (r, k) · W (k, j)) + b j, which is what multiplying the gathered row relH (r, ·) by W and
    adding b gives; both gathers clamp the same row number into the same 64 rows.
  * Multiplying by the reciprocal of the clamped in-degree against dividing by it: for y ≠ 0, x · (1 / y) = x / y, and
    y = max (count, 1) ≥ 1 is never 0, whatever the count is.
-/
import proofs.«402911_j1039382085697_3_alg».proof.Proof.KChain
import proofs.«402911_j1039382085697_3_alg».proof.Proof.LibDotPlain
import proofs.«402911_j1039382085697_3_alg».proof.Proof.LibRowGatherScatter
import proofs.«402911_j1039382085697_3_alg».proof.Proof.Gen.ReferenceIdeal.Read

noncomputable section

namespace Cert.Bridge

open Idealize.ShloMosaic Idealize.ShloMosaic.ValueIdx NodeStages MatProd
open Cert.KernelIdeal.Chain
open Cert.ReferenceIdeal Cert.ReferenceIdeal.Read

/-! ## Arithmetic on extended reals -/

/-- The single-precision pattern 0x3F800000 is the number 1. -/
theorem ofBits_one : Ideal.ofBits .f32 0x3F800000#32 = 1 := by
  simp [Ideal.ofBits, Ideal.ieee]; rw [← EReal.coe_mul]; norm_num

/-- Off zero, multiplying by the reciprocal is dividing: x · (1 · y⁻¹) = x · y⁻¹. -/
theorem mul_div_one (x y : EReal) (hy : y ≠ 0) : x * Ideal.div 1 y = Ideal.div x y := by
  unfold Ideal.div
  rw [if_neg hy, if_neg hy, one_mul]

/-- A maximum with 1 is at least 1, so it is not 0. -/
theorem max_one_ne_zero (c : EReal) : max c 1 ≠ 0 :=
  ne_of_gt (lt_of_lt_of_le zero_lt_one (le_max_right c 1))

/-! ## Bias rows and broadcast columns read at an index -/

/-- A 64-vector viewed as one row, read at (0, q), is its entry q. -/
theorem kRow64_apply (b : Arr S64 .f32) (q : Fin 64) : kRow64 b (ix2 (0 : Fin 1) q) = b (ix1 q) := by
  unfold kRow64
  refine (shapeCast_addUnit_apply ![64] b _ (ix2 (0 : Fin 1) q)).trans ?_
  exact congrArg b (funext fun a => match a with | ⟨0, _⟩ => rfl)

/-- A 16-vector viewed as one row, read at (0, q), is its entry q. -/
theorem kRow16_apply (b : Arr S16 .f32) (q : Fin 16) : kRow16 b (ix2 (0 : Fin 1) q) = b (ix1 q) := by
  unfold kRow16
  refine (shapeCast_addUnit_apply ![16] b _ (ix2 (0 : Fin 1) q)).trans ?_
  exact congrArg b (funext fun a => match a with | ⟨0, _⟩ => rfl)

/-- The reference's bias of the node layers, broadcast over the nodes, read at (p, q), is entry q of the vector. -/
theorem v84_at (b : Arr S64 .f32) (p : Fin 100000) (q : Fin 64) : val_main_v84 (F := Ideal) b (ix2 p q) = b (ix1 q) := by
  rw [val_main_v84_apply, val_main_v83_apply]
  exact congrArg b (funext fun a => match a with | ⟨0, _⟩ => rfl)

/-- The reference's bias of the weight table, broadcast over the edges, read at (e, q), is entry q of the vector. -/
theorem v58_at (b : Arr S64 .f32) (e : Fin 2000000) (q : Fin 64) : val_main_v58 (F := Ideal) b (ix2 e q) = b (ix1 q) := by
  rw [val_main_v58_apply, val_main_v57_apply]
  exact congrArg b (funext fun a => match a with | ⟨0, _⟩ => rfl)

/-- The reference's bias of the classifier, broadcast over the nodes, read at (p, q), is entry q of the vector. -/
theorem v112_at (b : Arr S16 .f32) (p : Fin 100000) (q : Fin 16) : val_main_v112 (F := Ideal) b (ix2 p q) = b (ix1 q) := by
  rw [val_main_v112_apply, val_main_v111_apply]
  exact congrArg b (funext fun a => match a with | ⟨0, _⟩ => rfl)

/-- A column over the nodes broadcast along the features, read at (p, q), is the column's entry p. -/
theorem bcastCol_at (h : S100000x1.BroadcastsInDim S100000x64 (![0, 1] : Fin 2 → Fin 2)) (mx : Arr S100000x1 .f32)
    (p : Fin 100000) (q : Fin 64) :
    broadcastInDim S100000x64 ![0, 1] h mx (ix2 p q) = mx (ix2 p (0 : Fin 1)) :=
  broadcastInDim_apply _ h mx (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])

/-- The tiled program's bias row of the weight table broadcast over the 64 relations, read at (r, q), is entry q. -/
theorem bcastRow_at (h : S1x64.BroadcastsInDim S64x64 (![0, 1] : Fin 2 → Fin 2)) (b : Arr S64 .f32)
    (r q : Fin 64) : broadcastInDim S64x64 ![0, 1] h (kRow64 b) (ix2 r q) = b (ix1 q) := by
  refine (broadcastInDim_apply _ h (kRow64 b) (ix2 r q) (ix2 (0 : Fin 1) q) (fun a => match a with
    | ⟨0, _⟩ => by show 0 = if (1 : Nat) = 1 then 0 else r.val; rw [if_pos rfl]
    | ⟨1, _⟩ => by show q.val = if (64 : Nat) = 1 then 0 else q.val; rw [if_neg (by decide)])).trans ?_
  exact kRow64_apply b q

/-! ## The contractions are matrix products -/

theorem dot_v0 (x : Arr S100000x128 .f32) (w : Arr S128x64 .f32) : val_main_v0 (F := Ideal) x w = mmP x w := by
  unfold val_main_v0
  exact DotPlain.dotGeneral_eq (φ₁ := .f32) (φ₂ := .f32) dot_S100000x128_S128x64_S100000x64_1_0_0_1_n_n rfl rfl rfl rfl rfl rfl
    none .single x w

theorem dot_table (h w : Arr S64x64 .f32) :
    Host.dotGeneral (F := Ideal) (φ₁ := .f32) (φ₂ := .f32) Cert.KernelIdeal.dot_S64x64_S64x64_S64x64_1_0_0_1_n_n none h w = mmP h w :=
  DotPlain.dotGeneral_eq (φ₁ := .f32) (φ₂ := .f32) Cert.KernelIdeal.dot_S64x64_S64x64_S64x64_1_0_0_1_n_n rfl rfl rfl rfl rfl rfl
    none .single h w

theorem dot_edges (y : Arr S2000000x64 .f32) (w : Arr S64x64 .f32) :
    Host.dotGeneral (F := Ideal) (φ₁ := .f32) (φ₂ := .f32) dot_S2000000x64_S64x64_S2000000x64_1_0_0_1_n_n none y w = mmP y w :=
  DotPlain.dotGeneral_eq (φ₁ := .f32) (φ₂ := .f32) dot_S2000000x64_S64x64_S2000000x64_1_0_0_1_n_n rfl rfl rfl rfl rfl rfl
    none .single y w

theorem dot_classes (y : Arr S100000x64 .f32) (w : Arr S64x16 .f32) :
    Host.dotGeneral (F := Ideal) (φ₁ := .f32) (φ₂ := .f32) dot_S100000x64_S64x16_S100000x16_1_0_0_1_n_n none y w = mmP y w :=
  DotPlain.dotGeneral_eq (φ₁ := .f32) (φ₂ := .f32) dot_S100000x64_S64x16_S100000x16_1_0_0_1_n_n rfl rfl rfl rfl rfl rfl
    none .single y w

/-! ## Gathering rows of the weight table against multiplying the gathered rows -/

/-- Row e of the table relH · W + b taken at e's relation is row e of (relH taken at e's relation) · W + b. -/
theorem gatherTable_eq (h w : Arr S64x64 .f32) (b : Arr S64 .f32) (idx : Arr S2000000x1 .i32) :
    Host.gather Cert.KernelIdeal.gather_S64x64_S2000000x1_S2000000x64_1_0_n_n_0_1_164 (kWT h w b) idx
      = addf (Host.dotGeneral (F := Ideal) (φ₁ := .f32) (φ₂ := .f32) dot_S2000000x64_S64x64_S2000000x64_1_0_0_1_n_n none
          (Host.gather gather_S64x64_S2000000x1_S2000000x64_1_0_n_n_0_1_164 h idx) w) (val_main_v58 (F := Ideal) b) := by
  funext j
  obtain ⟨e, k, rfl⟩ : ∃ (e : Fin 2000000) (k : Fin 64), j = ix2 e k := ⟨j 0, j 1, eq_ix2 j⟩
  rw [RowOps.gather_rows_apply Cert.KernelIdeal.gather_S64x64_S2000000x1_S2000000x64_1_0_n_n_0_1_164 rfl rfl rfl rfl rfl rfl
    (kWT h w b) idx e k (by decide)]
  rw [dot_edges, addf_apply, mmP_apply, v58_at]
  unfold kWT
  rw [dot_table, addf_apply, mmP_apply]
  refine congrArg₂ (· + ·) (Finset.sum_congr rfl fun c _ => ?_) (bcastRow_at _ b _ k)
  rw [RowOps.gather_rows_apply gather_S64x64_S2000000x1_S2000000x64_1_0_n_n_0_1_164 rfl rfl rfl rfl rfl rfl h idx e c (by decide)]

/-! ## The index columns, the in-degrees and the relation features are the same terms -/

theorem src_eq (a2 : Arr S2x2000000 .i32) : kSrc a2 = val_main_v69 (F := Ideal) a2 := rfl
theorem dst_eq (a2 : Arr S2x2000000 .i32) : kDst a2 = val_main_v73 (F := Ideal) a2 := rfl
theorem et_eq (a3 : Arr S2000000 .i32) : kEt a3 = val_main_v54 (F := Ideal) a3 := rfl
theorem mx_eq (a2 : Arr S2x2000000 .i32) : kMx a2 = val_main_v80 (F := Ideal) a2 := rfl
theorem relH_eq (a1 : Arr S64x64 .f32) (a4 : Arr S2x2048 .i32) (a5 : Arr S2048x1 .f32) :
    kRelH a1 a4 a5 = val_main_v48 (F := Ideal) a1 a4 a5 := rfl

/-- The column of ones reads 1 everywhere. -/
theorem ones_at (h1 : S_.BroadcastsInDim S100000x1 (![] : Fin 0 → Fin 2)) (i : S100000x1.Idx) :
    broadcastInDim S100000x1 ![] h1 (constant (F := Ideal) S_ .f32 0x3F800000#32) i = 1 :=
  ofBits_one

/-- A count clamped below by 1 is nowhere 0. -/
theorem clamp_ne_zero (cnt : Arr S100000x1 .f32) (h1 : S_.BroadcastsInDim S100000x1 (![] : Fin 0 → Fin 2)) (i : S100000x1.Idx) :
    maximumf cnt (broadcastInDim S100000x1 ![] h1 (constant (F := Ideal) S_ .f32 0x3F800000#32)) i ≠ 0 := by
  rw [maximumf_apply, ones_at]
  exact max_one_ne_zero _

/-- The clamped in-degree is nowhere 0. -/
theorem kMx_ne_zero (a2 : Arr S2x2000000 .i32) (i : S100000x1.Idx) : kMx a2 i ≠ 0 :=
  clamp_ne_zero _ _ i

/-! ## The stages -/

/-- The weight table taken at the edges' relations is the reference's per-edge weights. -/
theorem wt_eq (a1 : Arr S64x64 .f32) (a3 : Arr S2000000 .i32) (a4 : Arr S2x2048 .i32) (a5 : Arr S2048x1 .f32)
    (a7 : Arr S64x64 .f32) (a8 : Arr S64 .f32) :
    Host.gather Cert.KernelIdeal.gather_S64x64_S2000000x1_S2000000x64_1_0_n_n_0_1_164 (kWT (kRelH a1 a4 a5) a7 a8) (kEt a3)
      = val_main_v59 (F := Ideal) a1 a3 a4 a5 a7 a8 := by
  rw [gatherTable_eq, relH_eq, et_eq]
  rfl

/-- Mean, bias and tanh with the reciprocal computed once is the reference's divide, add and tanh. -/
theorem postAct_eq (agg : Arr S100000x64 .f32) (mx : Arr S100000x1 .f32) (b : Arr S64 .f32)
    (h1 : S_.BroadcastsInDim S100000x1 (![] : Fin 0 → Fin 2))
    (h2 : S100000x1.BroadcastsInDim S100000x64 (![0, 1] : Fin 2 → Fin 2)) (hmx : ∀ i, mx i ≠ 0) :
    postAct agg (Host.divf (broadcastInDim S100000x1 ![] h1 (constant (F := Ideal) S_ .f32 0x3F800000#32)) mx) (kRow64 b)
      = Host.tanh (F := Ideal) (φ := .f32) (addf (Host.divf agg (broadcastInDim S100000x64 ![0, 1] h2 mx)) (val_main_v84 (F := Ideal) b)) := by
  funext j
  obtain ⟨p, q, rfl⟩ : ∃ (p : Fin 100000) (q : Fin 64), j = ix2 p q := ⟨j 0, j 1, eq_ix2 j⟩
  rw [postAct_apply]
  show Ideal.tanh (agg (ix2 p q) * Ideal.div (Ideal.ofBits .f32 0x3F800000#32) (mx (ix2 p (0 : Fin 1))) + kRow64 b (ix2 (0 : Fin 1) q))
    = Ideal.tanh (Ideal.div (agg (ix2 p q)) (broadcastInDim S100000x64 ![0, 1] h2 mx (ix2 p q)) + val_main_v84 (F := Ideal) b (ix2 p q))
  rw [kRow64_apply, v84_at, bcastCol_at, ofBits_one, mul_div_one _ _ (hmx _)]

/-- The classifier is the reference's contraction plus its broadcast bias. -/
theorem classify_eq (y : Arr S100000x64 .f32) (w : Arr S64x16 .f32) (b : Arr S16 .f32) :
    classify y w (kRow16 b)
      = addf (Host.dotGeneral (F := Ideal) (φ₁ := .f32) (φ₂ := .f32) dot_S100000x64_S64x16_S100000x16_1_0_0_1_n_n none y w) (val_main_v112 (F := Ideal) b) := by
  funext j
  obtain ⟨p, q, rfl⟩ : ∃ (p : Fin 100000) (q : Fin 16), j = ix2 p q := ⟨j 0, j 1, eq_ix2 j⟩
  rw [classify_apply, dot_classes, addf_apply, mmP_apply, kRow16_apply, v112_at]

/-- The first layer's segment sum. -/
theorem agg1_eq (a0 : Arr S100000x128 .f32) (a1 : Arr S64x64 .f32) (a2 : Arr S2x2000000 .i32) (a3 : Arr S2000000 .i32)
    (a4 : Arr S2x2048 .i32) (a5 : Arr S2048x1 .f32) (a6 : Arr S128x64 .f32) (a7 : Arr S64x64 .f32) (a8 : Arr S64 .f32) :
    kAgg (mmP a0 a6) (kWT (kRelH a1 a4 a5) a7 a8) a2 a3 = val_main_v74 (F := Ideal) a0 a1 a2 a3 a4 a5 a6 a7 a8 := by
  unfold kAgg
  rw [wt_eq, ← dot_v0, src_eq, dst_eq]
  rfl

/-- The node features after the first layer. -/
theorem x1_eq (a0 : Arr S100000x128 .f32) (a1 : Arr S64x64 .f32) (a2 : Arr S2x2000000 .i32) (a3 : Arr S2000000 .i32)
    (a4 : Arr S2x2048 .i32) (a5 : Arr S2048x1 .f32) (a6 : Arr S128x64 .f32) (a7 : Arr S64x64 .f32) (a8 a9 : Arr S64 .f32) :
    kX1 a0 a1 a2 a3 a4 a5 a6 a7 a8 a9 = val_main_v86 (F := Ideal) a0 a1 a2 a3 a4 a5 a6 a7 a8 a9 := by
  unfold kX1
  rw [agg1_eq]
  exact postAct_eq _ (kMx a2) a9 _ _ (kMx_ne_zero a2)

/-- The second layer's segment sum. -/
theorem agg2_eq (a0 : Arr S100000x128 .f32) (a1 : Arr S64x64 .f32) (a2 : Arr S2x2000000 .i32) (a3 : Arr S2000000 .i32)
    (a4 : Arr S2x2048 .i32) (a5 : Arr S2048x1 .f32) (a6 : Arr S128x64 .f32) (a7 : Arr S64x64 .f32) (a8 a9 : Arr S64 .f32) :
    kAgg (val_main_v86 (F := Ideal) a0 a1 a2 a3 a4 a5 a6 a7 a8 a9) (kWT (kRelH a1 a4 a5) a7 a8) a2 a3
      = val_main_v97 (F := Ideal) a0 a1 a2 a3 a4 a5 a6 a7 a8 a9 := by
  unfold kAgg
  rw [wt_eq, src_eq, dst_eq]
  rfl

/-- The whole result of the tiled program is the reference's result term. -/
theorem kOut_eq_ref (a0 : Arr Cert.KernelIdeal.S100000x128 .f32) (a1 : Arr Cert.KernelIdeal.S64x64 .f32)
    (a2 : Arr Cert.KernelIdeal.S2x2000000 .i32) (a3 : Arr Cert.KernelIdeal.S2000000 .i32)
    (a4 : Arr Cert.KernelIdeal.S2x2048 .i32) (a5 : Arr Cert.KernelIdeal.S2048x1 .f32)
    (a6 : Arr Cert.KernelIdeal.S128x64 .f32) (a7 : Arr Cert.KernelIdeal.S64x64 .f32)
    (a8 a9 a10 : Arr Cert.KernelIdeal.S64 .f32) (a11 : Arr Cert.KernelIdeal.S64x16 .f32)
    (a12 : Arr Cert.KernelIdeal.S16 .f32) :
    kOut a0 a1 a2 a3 a4 a5 a6 a7 a8 a9 a10 a11 a12
      = Cert.ReferenceIdeal.Read.val_main_v113 (F := Ideal) a0 a1 a2 a3 a4 a5 a6 a7 a8 a9 a10 a11 a12 := by
  unfold kOut
  rw [x1_eq, agg2_eq, classify_eq]
  have h2 : postAct (val_main_v97 (F := Ideal) a0 a1 a2 a3 a4 a5 a6 a7 a8 a9) (kInv a2) (kRow64 a10)
      = val_main_v109 (F := Ideal) a0 a1 a2 a3 a4 a5 a6 a7 a8 a9 a10 :=
    postAct_eq _ (kMx a2) a10 _ _ (kMx_ne_zero a2)
  rw [h2]
  rfl

end Cert.Bridge

end
-- ==== Proof.lean ====
/-
  The certificate: a two-layer relational graph convolution with three row-tiled stages (an input projection, and two
  mean + bias + tanh stages of which the second also applies the classifier), against the plain reference.

  The three frames: the two tiled programs' are the generated frame certificates; the reference's is its generated
  run with the result dropped.  No operation was rewritten by idealization, so `preserves` has nothing to state.

  The value claim, at exact arithmetic.  The tiled program's run leaves its result buffer at what its last stage's
  write-backs leave; walking the stages back (each stage's 20 row blocks tile its result array, so the array is one
  function of the arrays the stage was entered with) gives the result as `Chain.kOut` of the argument arrays.  The
  reference's run gives its composed term.  The two agree because a matrix product is the same sum however it is
  tiled or formatted; gathering rows of (relation features · W + b) is gathering the features' rows first and then
  multiplying by W and adding b; and a · (1 / max (count, 1)) = a / max (count, 1) since the divisor is at least one.
-/
import proofs.«402911_j1039382085697_3_alg».proof.Defs
import proofs.«402911_j1039382085697_3_alg».proof.Proof.Gen.Kernel
import proofs.«402911_j1039382085697_3_alg».proof.Proof.Gen.Kernel.Skeleton
import proofs.«402911_j1039382085697_3_alg».proof.Proof.Gen.Kernel.Launch
import proofs.«402911_j1039382085697_3_alg».proof.Proof.Gen.Kernel.Points
import proofs.«402911_j1039382085697_3_alg».proof.Proof.Gen.Kernel.Frame
import proofs.«402911_j1039382085697_3_alg».proof.Proof.Gen.KernelIdeal
import proofs.«402911_j1039382085697_3_alg».proof.Proof.Gen.KernelIdeal.Skeleton
import proofs.«402911_j1039382085697_3_alg».proof.Proof.Gen.KernelIdeal.Launch
import proofs.«402911_j1039382085697_3_alg».proof.Proof.Gen.KernelIdeal.Points
import proofs.«402911_j1039382085697_3_alg».proof.Proof.Gen.KernelIdeal.Frame
import proofs.«402911_j1039382085697_3_alg».proof.Proof.Gen.ReferenceIdeal
import proofs.«402911_j1039382085697_3_alg».proof.Proof.Gen.Pre_finite_inputs
import proofs.«402911_j1039382085697_3_alg».proof.Proof.Gen.ReferenceIdeal.Run
import proofs.«402911_j1039382085697_3_alg».proof.Proof.Gen.ReferenceIdeal.Read
import proofs.«402911_j1039382085697_3_alg».proof.Proof.KRun
import proofs.«402911_j1039382085697_3_alg».proof.Proof.KValue
import proofs.«402911_j1039382085697_3_alg».proof.Proof.Bridge
import Idealize.ShloMosaic.Adequacy
import Idealize.ShloMosaic.Init

noncomputable section

namespace Cert.Proof

open Idealize.ShloMosaic Idealize.ShloMosaic.TcCoe Idealize.SL.Sem

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both programs run, from memories agreeing on the arguments, to the same result array: `Chain.kOut` of the
    arguments (the tiled program's value, read off its run) is the reference's composed term (`Bridge.kOut_eq_ref`). -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Chain.kOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨((h c).1).trans (Cert.KernelIdeal.KValue.W9_result m ρ c), (h c).2⟩)
      (Cert.KernelIdeal.KRun.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Read.val_main_v113_eq, h0, h1, h2, h3, h4, h5, h6, h7, h8, h9, h10, h11, h12]
    exact (Cert.Bridge.kOut_eq_ref _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
